-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x2048x2048 : Shape := ⟨3, ![16, 2048, 2048]⟩
abbrev S256x128 : Shape := ⟨2, ![256, 128]⟩
abbrev S128x1 : Shape := ⟨2, ![128, 1]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S16x2048x256 .f32) (main_arg1 : IVec S16x2048x2048 32) (main_arg2 : FVec F S256x128 .f32) (main_arg3 : FVec F S128x1 .f32) (main_arg4 : FVec F S128x1 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S16x2048x256 : Shape := ⟨3, ![16, 2048, 256]⟩
abbrev S16x2048x2048 : Shape := ⟨3, ![16, 2048, 2048]⟩
abbrev S256x128 : Shape := ⟨2, ![256, 128]⟩
abbrev S128x1 : Shape := ⟨2, ![128, 1]⟩
abbrev S1x128 : Shape := ⟨2, ![1, 128]⟩
abbrev S16x2048x128 : Shape := ⟨3, ![16, 2048, 128]⟩
abbrev S16x1x2048 : Shape := ⟨3, ![16, 1, 2048]⟩
abbrev S1x2048x256 : Shape := ⟨3, ![1, 2048, 256]⟩
abbrev S1x2048x128 : Shape := ⟨3, ![1, 2048, 128]⟩
abbrev S1x1x2048 : Shape := ⟨3, ![1, 1, 2048]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S1x2048 : Shape := ⟨2, ![1, 2048]⟩
abbrev S1x1x512 : Shape := ⟨3, ![1, 1, 512]⟩
abbrev S1x512x2048 : Shape := ⟨3, ![1, 512, 2048]⟩
abbrev S1x512x128 : Shape := ⟨3, ![1, 512, 128]⟩
abbrev S1x512 : Shape := ⟨2, ![1, 512]⟩
abbrev S512x1 : Shape := ⟨2, ![512, 1]⟩
abbrev S512x2048 : Shape := ⟨2, ![512, 2048]⟩
abbrev S512 : Shape := ⟨1, ![512]⟩
abbrev S512x128 : Shape := ⟨2, ![512, 128]⟩

abbrev nBuf : Space → Nat
  | .hbm => 11
  | .vmem => 21
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .i32⟩
  | .hbm, ⟨2, _⟩ => ⟨S256x128, .f32⟩
  | .hbm, ⟨3, _⟩ => ⟨S128x1, .f32⟩
  | .hbm, ⟨4, _⟩ => ⟨S128x1, .f32⟩
  | .hbm, ⟨5, _⟩ => ⟨S1x128, .f32⟩
  | .hbm, ⟨6, _⟩ => ⟨S1x128, .f32⟩
  | .hbm, ⟨7, _⟩ => ⟨S16x2048x128, .bf16⟩
  | .hbm, ⟨8, _⟩ => ⟨S16x1x2048, .f32⟩
  | .hbm, ⟨9, _⟩ => ⟨S16x1x2048, .f32⟩
  | .hbm, ⟨10, _⟩ => ⟨S16x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x2048x128, .bf16⟩
  | .local _ .vmem, ⟨6, _⟩ => ⟨S1x2048x128, .bf16⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x512, .f32⟩
  | .local _ .vmem, ⟨12, _⟩ => ⟨S1x1x512, .f32⟩
  | .local _ .vmem, ⟨13, _⟩ => ⟨S1x1x2048, .f32⟩
  | .local _ .vmem, ⟨14, _⟩ => ⟨S1x1x2048, .f32⟩
  | .local _ .vmem, ⟨15, _⟩ => ⟨S1x512x2048, .i32⟩
  | .local _ .vmem, ⟨16, _⟩ => ⟨S1x512x2048, .i32⟩
  | .local _ .vmem, ⟨17, _⟩ => ⟨S1x2048x128, .bf16⟩
  | .local _ .vmem, ⟨18, _⟩ => ⟨S1x2048x128, .bf16⟩
  | .local _ .vmem, ⟨19, _⟩ => ⟨S1x512x128, .f32⟩
  | .local _ .vmem, ⟨20, _⟩ => ⟨S1x512x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S128x1_S1x128 : S128x1.ShapeCasts S1x128
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  transposes_S2048x1_p1_0_S1x2048 : S2048x1.Transposes [1, 0] S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  transposes_S1x512_p1_0_S512x1 : S1x512.Transposes [1, 0] S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  broadcasts_S512x1_S512x128 : S512x1.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S2048x256_S256x128_S2048x128_1_0_0_1_n_n_wf : DotDims.WF S2048x256 S256x128 S2048x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .bf16 = 32 ∨ (Rect.block (s := S16x2048x128) S1x2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S16x1x2048.size a
  hwx0_5 : ∀ i : grid0.Coords, EltTy.bits .f32 = 32 ∨ (Rect.block (s := S16x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S16x1x2048.size a
  hwx0_6 : ∀ i : grid0.Coords, EltTy.bits .f32 = 32 ∨ (Rect.block (s := S16x1x2048) S1x1x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S16x1x2048.size a
  hwx1_0 : ∀ i : grid1.Coords, EltTy.bits .f32 = 32 ∨ (Rect.block (s := S16x1x2048) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S16x1x2048.size a
  hwx1_1 : ∀ i : grid1.Coords, EltTy.bits .f32 = 32 ∨ (Rect.block (s := S16x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S16x2048x2048.size a
  hwx1_2 : ∀ i : grid1.Coords, EltTy.bits .i32 = 32 ∨ (Rect.block (s := S16x2048x2048) S1x512x2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x128.size a ≤ S16x2048x128.size a
  hwx1_3 : ∀ i : grid1.Coords, EltTy.bits .bf16 = 32 ∨ (Rect.block (s := S16x2048x128) S1x2048x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S16x2048x128.size a
  hwx1_4 : ∀ i : grid1.Coords, EltTy.bits .f32 = 32 ∨ (Rect.block (s := S16x2048x128) S1x512x128.size (cc1_transform_4 i) (hinb1_4 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1x2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S256x128 : Shape := ⟨2, ![256, 128]⟩
abbrev S128x1 : Shape := ⟨2, ![128, 1]⟩
abbrev S16x2048x128 : Shape := ⟨3, ![16, 2048, 128]⟩
abbrev S16x2048x1 : Shape := ⟨3, ![16, 2048, 1]⟩
abbrev S16x1x2048 : Shape := ⟨3, ![16, 1, 2048]⟩
abbrev S_ : Shape := ⟨0, ![]⟩
abbrev S16x2048 : Shape := ⟨2, ![16, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .i32⟩
  | .hbm, ⟨2, _⟩ => ⟨S256x128, .f32⟩
  | .hbm, ⟨3, _⟩ => ⟨S128x1, .f32⟩
  | .hbm, ⟨4, _⟩ => ⟨S128x1, .f32⟩
  | .hbm, ⟨5, _⟩ => ⟨S16x2048x128, .f32⟩
  | .hbm, ⟨6, _⟩ => ⟨S16x2048x1, .f32⟩
  | .hbm, ⟨7, _⟩ => ⟨S16x2048x1, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .i1⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .i32⟩
  | .hbm, ⟨20, _⟩ => ⟨S16x2048x2048, .i32⟩
  | .hbm, ⟨21, _⟩ => ⟨S16x2048x2048, .i1⟩
  | .hbm, ⟨22, _⟩ => ⟨S_, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S16x2048x128, .f32⟩
  | .hbm, ⟨41, _⟩ => ⟨S_, .f32⟩
  | .hbm, ⟨42, _⟩ => ⟨S16x2048x128, .f32⟩
  | .hbm, ⟨43, _⟩ => ⟨S16x2048x128, .i1⟩
  | .hbm, ⟨44, _⟩ => ⟨S_, .f32⟩
  | .hbm, ⟨45, _⟩ => ⟨S16x2048x128, .f32⟩
  | .hbm, ⟨46, _⟩ => ⟨S16x2048x128, .i1⟩
  | .hbm, ⟨47, _⟩ => ⟨S_, .f32⟩
  | .hbm, ⟨48, _⟩ => ⟨S_, .f32⟩
  | .hbm, ⟨49, _⟩ => ⟨S16x2048x128, .f32⟩
  | .hbm, ⟨50, _⟩ => ⟨S16x2048x128, .f32⟩
  | .hbm, ⟨51, _⟩ => ⟨S16x2048x128, .f32⟩
  | .hbm, ⟨52, _⟩ => ⟨S_, .f32⟩
  | .hbm, ⟨53, _⟩ => ⟨S16x2048x128, .f32⟩
  | .hbm, ⟨54, _⟩ => ⟨S16x2048x128, .f32⟩
  | .hbm, ⟨55, _⟩ => ⟨S16x2048x128, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_cst_0 : Ref sig .tc := ⟨.hbm, 44, rfl⟩
abbrev main_call2_v2 : Ref sig .tc := ⟨.hbm, 45, rfl⟩
abbrev main_call2_v3 : Ref sig .tc := ⟨.hbm, 46, rfl⟩
abbrev main_call2_cst_1 : Ref sig .tc := ⟨.hbm, 47, rfl⟩
abbrev main_call2_call0_v0 : Ref sig .tc := ⟨.hbm, 48, rfl⟩
abbrev main_call2_call0_v1 : Ref sig .tc := ⟨.hbm, 49, rfl⟩
abbrev main_call2_v4 : Ref sig .tc := ⟨.hbm, 50, rfl⟩
abbrev main_call2_v5 : Ref sig .tc := ⟨.hbm, 51, rfl⟩
abbrev main_call2_cst_2 : Ref sig .tc := ⟨.hbm, 52, rfl⟩
abbrev main_call2_v6 : Ref sig .tc := ⟨.hbm, 53, rfl⟩
abbrev main_call2_v7 : Ref sig .tc := ⟨.hbm, 54, rfl⟩
abbrev main_v27 : Ref sig .tc := ⟨.hbm, 55, rfl⟩

abbrev nD : Nat := 1
abbrev τ : Topo := Topo.v7x

variable {F : FTy → Type} [FloatOps F]

class Facts₀ : Prop where
  transposes_S16x2048x1_S16x1x2048_0_2_1 : S16x2048x1.Transposes [0, 2, 1] S16x1x2048
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x128 : S_.BroadcastsInDim S16x2048x128 (![] : Fin 0 → Fin S16x2048x128.rank)
  dot_S16x2048x256_S256x128_S16x2048x128_2_0_01_1_n_n_wf : DotDims.WF S16x2048x256 S256x128 S16x2048x128 [2] [0] [0, 1] [1] [] []
  dot_S16x2048x128_S128x1_S16x2048x1_2_0_01_1_n_n_wf : DotDims.WF S16x2048x128 S128x1 S16x2048x1 [2] [0] [0, 1] [1] [] []
  dot_S16x2048x2048_S16x2048x128_S16x2048x128_2_1_1_2_0_0_wf : DotDims.WF S16x2048x2048 S16x2048x128 S16x2048x128 [2] [1] [1] [2] [0] [0]

variable [Facts₀]

def dot_S16x2048x256_S256x128_S16x2048x128_2_0_01_1_n_n : DotDims S16x2048x256 S256x128 S16x2048x128 where
  lhsContracting := [2]
  rhsContracting := [0]
  lhsNonContracting := [0, 1]
  rhsNonContracting := [1]
  lhsBatch := []
  rhsBatch := []
  wf := dot_S16x2048x256_S256x128_S16x2048x128_2_0_01_1_n_n_wf
def dot_S16x2048x128_S128x1_S16x2048x1_2_0_01_1_n_n : DotDims S16x2048x128 S128x1 S16x2048x1 where
  lhsContracting := [2]
  rhsContracting := [0]
  lhsNonContracting := [0, 1]
  rhsNonContracting := [1]
  lhsBatch := []
  rhsBatch := []
  wf := dot_S16x2048x128_S128x1_S16x2048x1_2_0_01_1_n_n_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Spec.lean ====
/-
  The graph-attention layer both programs compute, written once over the extended reals as functions of the
  argument arrays, index by index.

  With x : [16, 2048, 256], W : [256, 128], a₁, a₂ : [128, 1] and an integer adjacency adj : [16, 2048, 2048]:
    h[b, n, o]  = ∑ f, x[b, n, f] · W[f, o]                         (projected features)
    s_j[b, n]   = ∑ o, h[b, n, o] · a_j[o]                          (the two attention scores, j = 1, 2)
    g[b, n, k]  = leaky (s₁[b, n] + s₂[b, k]) where adj[b, n, k] > 0, a large negative fill elsewhere
    p[b, n, k]  = exp (g[b, n, k] − max_k g[b, n, k]),   l[b, n] = ∑ k, p[b, n, k]
    out[b, n, o] = elu (∑ k, (p[b, n, k] / l[b, n]) · h[b, k, o]).
  The two programs differ in three places only: the leaky rectifier is `max e (α·e)` in one and a comparison with
  zero in the other; one divides the weighted sum by `l` after the contraction over `k`, the other divides every
  weight first; and the exponential-minus-one of the final rectifier is spelt `exp (min y 0) − 1` in one and
  `1 · (exp (y or 0) − 1)` in the other. `outK` and `outR` below are the two spellings.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev SIn : Shape := ⟨3, ![16, 2048, 256]⟩
abbrev SAdj : Shape := ⟨3, ![16, 2048, 2048]⟩
abbrev SWt : Shape := ⟨2, ![256, 128]⟩
abbrev SCol : Shape := ⟨2, ![128, 1]⟩
abbrev SRow : Shape := ⟨2, ![1, 128]⟩
abbrev SFeat : Shape := ⟨3, ![16, 2048, 128]⟩
abbrev SScore : Shape := ⟨3, ![16, 1, 2048]⟩

/-- The rectifier's slope on the negative side (the single-precision word nearest one fifth). -/
def slope : EReal := Ideal.ofBits .f32 0x3E4CCCCD#32
/-- What a masked-out logit is replaced by: a large negative finite number. -/
def fill : EReal := Ideal.ofBits .f32 0xD9FFCB9E#32
/-- The value a row maximum starts from. -/
def negInf : EReal := Ideal.ofBits .f32 0xFF800000#32
/-- The word of the number one. -/
def one : EReal := Ideal.ofBits .f32 0x3F800000#32

/-- Projected features: `h[b, n, o] = ∑ f, x[b, n, f] · W[f, o]`. -/
def feat (x : SIn.Idx → EReal) (w : SWt.Idx → EReal) (b : Fin 16) (n : Fin 2048) (o : Fin 128) : EReal :=
  ∑ f : Fin 256, x (ix3 b n f) * w (ix2 f o)

/-- The projected features as an array. -/
def featArr (x : SIn.Idx → EReal) (w : SWt.Idx → EReal) : SFeat.Idx → EReal :=
  fun i => feat x w (i 0) (i 1) (i 2)

/-- A node's score against a weight ROW `r[0, o]`: `∑ o, h[b, n, o] · r[0, o]`. -/
def scoreRow (h : SFeat.Idx → EReal) (r : SRow.Idx → EReal) (b : Fin 16) (n : Fin 2048) : EReal :=
  ∑ o : Fin 128, h (ix3 b n o) * r (ix2 0 o)

/-- The scores laid out along the last axis of a [16, 1, 2048] array. -/
def scoreRowArr (h : SFeat.Idx → EReal) (r : SRow.Idx → EReal) : SScore.Idx → EReal :=
  fun i => scoreRow h r (i 0) (i 2)

/-- A weight column [128, 1] read as the row [1, 128] with the same entries. -/
def colAsRow (a : SCol.Idx → EReal) : SRow.Idx → EReal := fun j => a (ix2 (j 1) 0)

/-- The logits of query node `n` of batch `b` against every key node: the rectified sum of the two scores where the
    adjacency entry is positive, the fill elsewhere. `lk` is the rectifier. -/
def logits (lk : EReal → EReal) (s1 s2 : SScore.Idx → EReal) (adj : SAdj.Idx → BitVec 32) (b : Fin 16) (n : Fin 2048) :
    Fin 2048 → EReal :=
  fun k => Scalar.select (IntOp.cmpi .sgt (adj (ix3 b n k)) 0#32) (lk (s1 (ix3 b 0 n) + s2 (ix3 b 0 k))) fill

/-- A row's maximum, taken from `negInf`. -/
def rowMax (g : Fin 2048 → EReal) : EReal := (Finset.univ : Finset (Fin 2048)).fold max negInf g

/-- The unnormalised attention weight of key `k`. -/
def weight (g : Fin 2048 → EReal) (k : Fin 2048) : EReal := Ideal.exp (g k - rowMax g)

/-- The normaliser: the sum of a row's weights. -/
def denom (g : Fin 2048 → EReal) : EReal := ∑ k : Fin 2048, weight g k

/-- The leaky rectifier as a maximum. -/
def leakyK (e : EReal) : EReal := max e (slope * e)
/-- The leaky rectifier as a choice on the sign. -/
def leakyR (e : EReal) : EReal := Scalar.select (Ideal.cmp .ogt e 0) e (slope * e)

/-- The exponential linear unit with the exponential's argument capped at zero. -/
def eluK (y : EReal) : EReal := Scalar.select (Ideal.cmp .ogt y 0) y (Ideal.exp (min y 0) - one)
/-- The exponential linear unit through exponential-minus-one of `y` where `y` is not positive. -/
def eluR (y : EReal) : EReal :=
  Scalar.select (Ideal.cmp .ogt y 0) y (one * (Ideal.exp (Scalar.select (Ideal.cmp .ogt y 0) 0 y) - 1))

/-- The layer with the division AFTER the contraction over the keys, from the two score arrays, the adjacency and the
    feature array. -/
def outK (s1 s2 : SScore.Idx → EReal) (adj : SAdj.Idx → BitVec 32) (h : SFeat.Idx → EReal) : SFeat.Idx → EReal :=
  fun i => eluK (Ideal.div (∑ k : Fin 2048, weight (logits leakyK s1 s2 adj (i 0) (i 1)) k * h (ix3 (i 0) k (i 2)))
    (denom (logits leakyK s1 s2 adj (i 0) (i 1))))

/-- The layer with every weight divided BEFORE the contraction. -/
def outR (s1 s2 : SScore.Idx → EReal) (adj : SAdj.Idx → BitVec 32) (h : SFeat.Idx → EReal) : SFeat.Idx → EReal :=
  fun i => eluR (∑ k : Fin 2048, Ideal.div (weight (logits leakyR s1 s2 adj (i 0) (i 1)) k)
    (denom (logits leakyR s1 s2 adj (i 0) (i 1))) * h (ix3 (i 0) k (i 2)))

/-- The whole layer from the five arguments, division after the contraction. -/
def layerK (x : SIn.Idx → EReal) (adj : SAdj.Idx → BitVec 32) (w : SWt.Idx → EReal) (a1 a2 : SCol.Idx → EReal) :
    SFeat.Idx → EReal :=
  outK (scoreRowArr (featArr x w) (colAsRow a1)) (scoreRowArr (featArr x w) (colAsRow a2)) adj (featArr x w)

/-- The whole layer from the five arguments, division before the contraction. -/
def layerR (x : SIn.Idx → EReal) (adj : SAdj.Idx → BitVec 32) (w : SWt.Idx → EReal) (a1 a2 : SCol.Idx → EReal) :
    SFeat.Idx → EReal :=
  outR (scoreRowArr (featArr x w) (colAsRow a1)) (scoreRowArr (featArr x w) (colAsRow a2)) adj (featArr x w)

theorem featArr_ix3 (x : SIn.Idx → EReal) (w : SWt.Idx → EReal) (b : Fin 16) (n : Fin 2048) (o : Fin 128) :
    featArr x w (ix3 b n o) = feat x w b n o := rfl

theorem scoreRowArr_ix3 (h : SFeat.Idx → EReal) (r : SRow.Idx → EReal) (b : Fin 16) (n : Fin 2048) :
    scoreRowArr h r (ix3 b 0 n) = scoreRow h r b n := rfl

end Cert.Attn

end
-- ==== Proof.Region0.lean ====
/-
  What the first launch leaves in its three output arrays, for any contents `V` of the buffers at its entry: the
  projected features `h = x · W` in the first, and in the other two the scores `∑ o, h[b, n, o] · r[0, o]` against the
  two weight rows, laid along the last axis of a [16, 1, 2048] array. Grid point `b` handles batch `b` whole.
-/
import proofs.«405790_j12214886990524_3_alg».proof.Proof.Gen.KernelIdeal.Frame
import proofs.«405790_j12214886990524_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The contraction's operand indices -/

theorem lhs_axis0 (j : S2048x128.Idx) (k : dot_S2048x256_S256x128_S2048x128_1_0_0_1_n_n.contr.Idx) :
    (dot_S2048x256_S256x128_S2048x128_1_0_0_1_n_n.lhsIdx j k 0).val = (j 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl

theorem lhs_axis1 (j : S2048x128.Idx) (k : dot_S2048x256_S256x128_S2048x128_1_0_0_1_n_n.contr.Idx) :
    (dot_S2048x256_S256x128_S2048x128_1_0_0_1_n_n.lhsIdx j k 1).val = (k ⟨0, by decide⟩).val :=
  dot_S2048x256_S256x128_S2048x128_1_0_0_1_n_n.lhsIdx_val_of_single (cl := 1) rfl j k

theorem rhs_axis0 (j : S2048x128.Idx) (k : dot_S2048x256_S256x128_S2048x128_1_0_0_1_n_n.contr.Idx) :
    (dot_S2048x256_S256x128_S2048x128_1_0_0_1_n_n.rhsIdx j k 0).val = (k ⟨0, by decide⟩).val :=
  dot_S2048x256_S256x128_S2048x128_1_0_0_1_n_n.rhsIdx_val_of_single (cr := 0) rfl j k

theorem rhs_axis1 (j : S2048x128.Idx) (k : dot_S2048x256_S256x128_S2048x128_1_0_0_1_n_n.contr.Idx) :
    (dot_S2048x256_S256x128_S2048x128_1_0_0_1_n_n.rhsIdx j k 1).val = (j 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

/-- The operand indices of the contraction at output `(n, o)` and contraction coordinate `f`: `(n, f)` and `(f, o)`. -/
theorem lhsIdx_eq (n : Fin 2048) (o : Fin 128) (f : Fin 256) :
    dot_S2048x256_S256x128_S2048x128_1_0_0_1_n_n.lhsIdx (ix2 n o)
      ((contrEquiv1 dot_S2048x256_S256x128_S2048x128_1_0_0_1_n_n 256 rfl rfl).symm f) = ix2 n f := by
  funext a; apply Fin.ext
  match a with
  | ⟨0, _⟩ => exact lhs_axis0 _ _
  | ⟨1, _⟩ => exact (lhs_axis1 _ _).trans (contrEquiv1_symm_val _ 256 rfl rfl f)

theorem rhsIdx_eq (n : Fin 2048) (o : Fin 128) (f : Fin 256) :
    dot_S2048x256_S256x128_S2048x128_1_0_0_1_n_n.rhsIdx (ix2 n o)
      ((contrEquiv1 dot_S2048x256_S256x128_S2048x128_1_0_0_1_n_n 256 rfl rfl).symm f) = ix2 f o := by
  funext a; apply Fin.ext
  match a with
  | ⟨0, _⟩ => exact (rhs_axis0 _ _).trans (contrEquiv1_symm_val _ 256 rfl rfl f)
  | ⟨1, _⟩ => exact rhs_axis1 _ _

/-! ## The payloads at an index -/

/-- The product block at `(n, o)`: the sum over the 256 input features. -/
theorem pay1_at (x0 : Vec Ideal S1x2048x256 .f32) (x1 : Vec Ideal S256x128 .f32) (n : Fin 2048) (o : Fin 128) :
    k0_pay1 (F := Ideal) x0 x1 (ix2 n o) = ∑ f : Fin 256, x0 (ix3 (0 : Fin 1) n f) * x1 (ix2 f o) := by
  unfold k0_pay1
  refine (Ideal.matmul_constant_zero_apply _ none _ _ (ix2 n o)).trans ?_
  refine (Equiv.sum_comp (contrEquiv1 dot_S2048x256_S256x128_S2048x128_1_0_0_1_n_n 256 rfl rfl).symm _).symm.trans ?_
  refine Finset.sum_congr rfl fun f _ => ?_
  rw [lhsIdx_eq, rhsIdx_eq]
  exact congrArg (· * x1 (ix2 f o)) (shapeCast_1ab_ab_apply x0 _ n f)

/-- The stored feature block at `(0, n, o)`. -/
theorem pay2_at (x0 : Vec Ideal S1x2048x256 .f32) (x1 : Vec Ideal S256x128 .f32) (u : Fin 1) (n : Fin 2048) (o : Fin 128) :
    k0_pay2 (F := Ideal) x0 x1 (ix3 u n o) = ∑ f : Fin 256, x0 (ix3 (0 : Fin 1) n f) * x1 (ix2 f o) := by
  unfold k0_pay2
  refine (shapeCast_ab_1ab_apply _ _ u n o).trans ?_
  exact pay1_at x0 x1 n o

/-- The score payload, for whichever weight row it is given: the product block times the row broadcast down the nodes,
    summed along the 128 output features, laid as a [1, 1, 2048] block. -/
def scorePay (x0 : Vec Ideal S1x2048x256 .f32) (x1 : Vec Ideal S256x128 .f32) (r : Vec Ideal S1x128 .f32) :
    FVec Ideal S1x1x2048 .f32 :=
  shapeCast S1x1x2048
    (transpose S1x2048 [1, 0]
      (shapeCast S2048x1
        (multiReduction .add [1] S2048
          (mulf (k0_pay1 (F := Ideal) x0 x1)
            (broadcastTo S2048x128 (shapeCast S1x128 r shapeCasts_S1x128_S1x128) broadcasts_S1x128_S2048x128))
          0x00000000#32 reduces_S2048x128_S2048 (.inl rfl) rfl)
        shapeCasts_S2048_S2048x1)
      transposes_S2048x1_p1_0_S1x2048)
    shapeCasts_S1x2048_S1x1x2048

theorem pay3_eq (x0 : Vec Ideal S1x2048x256 .f32) (x1 : Vec Ideal S256x128 .f32) (r : Vec Ideal S1x128 .f32) :
    k0_pay3 (F := Ideal) x0 x1 r = scorePay x0 x1 r := rfl

theorem pay4_eq (x0 : Vec Ideal S1x2048x256 .f32) (x1 : Vec Ideal S256x128 .f32) (r : Vec Ideal S1x128 .f32) :
    k0_pay4 (F := Ideal) x0 x1 r = scorePay x0 x1 r := rfl

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the product block whose coordinate along the summed axis is `o`, over the reduced index `n`. -/
theorem lift_eq (n : Fin 2048) (o : Fin 128) :
    reduces_S2048x128_S2048.lift (ix1 n) o = (ix2 n o : S2048x128.Idx) := by
  funext a; apply Fin.ext
  match a with
  | ⟨0, _⟩ => rfl
  | ⟨1, _⟩ => rfl

/-- The score block at `(0, 0, n)`: the sum over the 128 output features of the projected feature times the row's entry. -/
theorem scorePay_at (x0 : Vec Ideal S1x2048x256 .f32) (x1 : Vec Ideal S256x128 .f32) (r : Vec Ideal S1x128 .f32)
    (u v : Fin 1) (n : Fin 2048) :
    scorePay x0 x1 r (ix3 u v n)
      = ∑ o : Fin 128, (∑ f : Fin 256, x0 (ix3 (0 : Fin 1) n f) * x1 (ix2 f o)) * r (ix2 (0 : Fin 1) o) := by
  unfold scorePay
  refine (shapeCast_ab_1ab_apply _ _ u v n).trans ?_
  refine (transpose_ix2_apply _ _ v n).trans ?_
  refine (shapeCast_a_a1_apply _ _ n v).trans ?_
  refine (Ideal.multiReduction_add_single _ 0x00000000#32 reduces_S2048x128_S2048 (.inl rfl) rfl (ix1 n)).trans ?_
  refine Finset.sum_congr rfl fun o _ => ?_
  refine (congrArg _ (lift_eq n o)).trans ?_
  refine (mulf_apply _ _ (ix2 n o)).trans ?_
  exact congrArg₂ (· * ·) (pay1_at x0 x1 n o)
    ((broadcastTo_1b_ab_apply _ _ n o).trans (congrFun (shapeCast_self r _) _))

/-! ## A block of the feature array, and of a score array, from the blocks the body loads -/

/-- If the loaded `x` block is batch `b` of `A0` and the loaded weight block is `A2`, the stored feature block is batch
    `b` of the projected features. -/
theorem feat_block (A0 : Cert.Attn.SIn.Idx → EReal) (A2 : Cert.Attn.SWt.Idx → EReal)
    (x0 : Vec Ideal S1x2048x256 .f32) (x1 : Vec Ideal S256x128 .f32) (b : Fin 16)
    (h0 : ∀ (n : Fin 2048) (f : Fin 256), x0 (ix3 (0 : Fin 1) n f) = A0 (ix3 b n f))
    (h1 : ∀ (f : Fin 256) (o : Fin 128), x1 (ix2 f o) = A2 (ix2 f o))
    (u : Fin 1) (n : Fin 2048) (o : Fin 128) :
    k0_pay2 (F := Ideal) x0 x1 (ix3 u n o) = Cert.Attn.featArr A0 A2 (ix3 b n o) := by
  rw [pay2_at, Cert.Attn.featArr_ix3]
  unfold Cert.Attn.feat
  exact Finset.sum_congr rfl fun f _ => by rw [h0, h1]

/-- Likewise a stored score block is batch `b` of the scores of the projected features against the row `R`. -/
theorem score_block (A0 : Cert.Attn.SIn.Idx → EReal) (A2 : Cert.Attn.SWt.Idx → EReal) (R : Cert.Attn.SRow.Idx → EReal)
    (x0 : Vec Ideal S1x2048x256 .f32) (x1 : Vec Ideal S256x128 .f32) (x2 : Vec Ideal S1x128 .f32) (b : Fin 16)
    (h0 : ∀ (n : Fin 2048) (f : Fin 256), x0 (ix3 (0 : Fin 1) n f) = A0 (ix3 b n f))
    (h1 : ∀ (f : Fin 256) (o : Fin 128), x1 (ix2 f o) = A2 (ix2 f o))
    (h2 : ∀ o : Fin 128, x2 (ix2 (0 : Fin 1) o) = R (ix2 (0 : Fin 1) o))
    (u v : Fin 1) (n : Fin 2048) :
    scorePay x0 x1 x2 (ix3 u v n) = Cert.Attn.scoreRowArr (Cert.Attn.featArr A0 A2) R (ix3 b v n) := by
  rw [scorePay_at]
  show _ = Cert.Attn.scoreRow (Cert.Attn.featArr A0 A2) R b n
  unfold Cert.Attn.scoreRow
  refine Finset.sum_congr rfl fun o _ => ?_
  rw [Cert.Attn.featArr_ix3, h2]
  unfold Cert.Attn.feat
  exact congrArg (· * R (ix2 (0 : Fin 1) o)) (Finset.sum_congr rfl fun f _ => by rw [h0, h1])

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` takes block `t` along the batch axis of `x` and of the three outputs, and the one block of the weights
    and of the two rows. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

variable (V : (c : Dev nD) → (b : Ref sig .tc) → Buf (Elt Ideal) ((c : Thread nD τ).loc b))

/-! ## The input blocks at a point -/

/-- The `x` block at point `t` is batch `t` of the array. -/
theorem xblk_at (c : Dev nD) (t : Fin cfg0.N) (hb : t.val < 16) (n : Fin 2048) (f : Fin 256) :
    iblk0 (F := Ideal) V c 0 t (ix3 (0 : Fin 1) n f) = V c main_arg0 (ix3 (⟨t.val, hb⟩ : Fin 16) n f) := by
  obtain ⟨e0, e1, e2, -⟩ := idx_facts t
  show V c main_arg0 (((cfg0.win 0).blk t).view.emb (ix3 (0 : Fin 1) n f)) = _
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * f.val = f.val; omega

/-- The weight block at every point is the whole array. -/
theorem wblk_at (c : Dev nD) (t : Fin cfg0.N) (f : Fin 256) (o : Fin 128) :
    iblk0 (F := Ideal) V c 1 t (ix2 f o) = V c main_arg2 (ix2 f o) := by
  obtain ⟨-, -, -, e0, e1, -⟩ := idx_facts t
  show V c main_arg2 (((cfg0.win 1).blk t).view.emb (ix2 f o)) = _
  refine congrArg (V c main_arg2) (funext fun a => Fin.ext ?_)
  match a with
  | ⟨0, _⟩ => show win0_1.index t (0 : Fin 2) * 256 + 1 * f.val = f.val; omega
  | ⟨1, _⟩ => show win0_1.index t (1 : Fin 2) * 128 + 1 * o.val = o.val; omega

/-- So is each weight row's block. -/
theorem r0blk_at (c : Dev nD) (t : Fin cfg0.N) (o : Fin 128) :
    iblk0 (F := Ideal) V c 2 t (ix2 (0 : Fin 1) o) = V c main_v0 (ix2 (0 : Fin 1) o) := by
  obtain ⟨-, -, -, -, -, e0, e1, -⟩ := idx_facts t
  show V c main_v0 (((cfg0.win 2).blk t).view.emb (ix2 (0 : Fin 1) o)) = _
  refine congrArg (V c main_v0) (funext fun a => Fin.ext ?_)
  match a with
  | ⟨0, _⟩ => show win0_2.index t (0 : Fin 2) * 1 + 1 * 0 = 0; omega
  | ⟨1, _⟩ => show win0_2.index t (1 : Fin 2) * 128 + 1 * o.val = o.val; omega

theorem r1blk_at (c : Dev nD) (t : Fin cfg0.N) (o : Fin 128) :
    iblk0 (F := Ideal) V c 3 t (ix2 (0 : Fin 1) o) = V c main_v1 (ix2 (0 : Fin 1) o) := by
  obtain ⟨-, -, -, -, -, -, -, e0, e1, -⟩ := idx_facts t
  show V c main_v1 (((cfg0.win 3).blk t).view.emb (ix2 (0 : Fin 1) o)) = _
  refine congrArg (V c main_v1) (funext fun a => Fin.ext ?_)
  match a with
  | ⟨0, _⟩ => show win0_3.index t (0 : Fin 2) * 1 + 1 * 0 = 0; omega
  | ⟨1, _⟩ => show win0_3.index t (1 : Fin 2) * 128 + 1 * o.val = o.val; omega

/-- An index of the array is in point `t`'s block of output 4 iff each coordinate is in the block's range on its axis. -/
theorem mem_blk4 (t : Fin cfg0.N) (i : S16x2048x128.Idx) :
    i ∈ ((cfg0.win 4).blk t).view.set ↔ ∀ a : Fin 3, win0_4.index t a * S1x2048x128.size a ≤ (i a).val
      ∧ (i a).val < win0_4.index t a * S1x2048x128.size a + S1x2048x128.size a := by
  show i ∈ ((View.whole main_v2_0).slice (win0_4.rect t)).set ↔ _
  rw [View.set_slice_whole, Rect.mem_set_unit]
  exact Iff.rfl

/-- Every index of the feature array is in the block of the point numbered by its batch. -/
theorem cover4 (i : S16x2048x128.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 128 := (i 2).isLt
  obtain ⟨-, -, -, -, -, -, -, -, -, e0, e1, e2, -⟩ := idx_facts ⟨(i 0).val, h0⟩
  have e0' : win0_4.index ⟨(i 0).val, h0⟩ (0 : Fin 3) = (i 0).val := e0
  refine ⟨⟨(i 0).val, h0⟩, flush0_4 _, ?_⟩
  rw [mem_blk4]
  intro a
  match a with
  | ⟨0, _⟩ => show win0_4.index ⟨(i 0).val, h0⟩ (0 : Fin 3) * 1 ≤ (i 0).val ∧ (i 0).val < win0_4.index ⟨(i 0).val, h0⟩ (0 : Fin 3) * 1 + 1; omega
  | ⟨1, _⟩ => show win0_4.index ⟨(i 0).val, h0⟩ (1 : Fin 3) * 2048 ≤ (i 1).val ∧ (i 1).val < win0_4.index ⟨(i 0).val, h0⟩ (1 : Fin 3) * 2048 + 2048; omega
  | ⟨2, _⟩ => show win0_4.index ⟨(i 0).val, h0⟩ (2 : Fin 3) * 128 ≤ (i 2).val ∧ (i 2).val < win0_4.index ⟨(i 0).val, h0⟩ (2 : Fin 3) * 128 + 128; omega

/-- What point `t` writes back to the feature array is block `t` of the projected features of the arrays as the launch
    finds them. -/
theorem flushed4_eq (c : Dev nD) (t : Fin cfg0.N) :
    (dat0 (F := Ideal) V c).flushed 4 t
      = ((cfg0.win 4).blk t).view.read (Elt Ideal) (Cert.Attn.featArr (V c main_arg0) (V c main_arg2)) := by
  show (cfg0.win 4).cut (grid0.coords t) ((dat0 (F := Ideal) V c).after 4 t) = _
  rw [after0_4]
  unfold out0_4
  rw [View.canon_unit_zero hz3]
  simp only [View.ld_unit_zero (S := S1x2048x256) hz3, View.ld_unit_zero (S := S256x128) hz2]
  have hb : t.val < 16 := t.isLt
  obtain ⟨-, -, -, -, -, -, -, -, -, e0, e1, e2, -⟩ := idx_facts t
  funext j
  show k0_pay2 (F := Ideal) (iblk0 V c 0 t) (iblk0 V c 1 t) j
    = Cert.Attn.featArr (V c main_arg0) (V c main_arg2) (((cfg0.win 4).blk t).view.emb j)
  have hemb : ((cfg0.win 4).blk t).view.emb j = (ix3 (⟨t.val, hb⟩ : Fin 16) (j 1) (j 2) : S16x2048x128.Idx) := by
    funext a; apply Fin.ext
    match a with
    | ⟨0, _⟩ => show win0_4.index t (0 : Fin 3) * 1 + 1 * (j 0).val = t.val; have hj : (j 0).val < 1 := (j 0).isLt; omega
    | ⟨1, _⟩ => show win0_4.index t (1 : Fin 3) * 2048 + 1 * (j 1).val = (j 1).val; omega
    | ⟨2, _⟩ => show win0_4.index t (2 : Fin 3) * 128 + 1 * (j 2).val = (j 2).val; omega
  refine ((congrArg _ (eq_ix3 j)).trans
    (feat_block (V c main_arg0) (V c main_arg2) (iblk0 V c 0 t) (iblk0 V c 1 t) ⟨t.val, hb⟩
      (xblk_at V c t hb) (wblk_at V c t) (j 0) (j 1) (j 2))).trans (congrArg _ hemb.symm)

/-- The feature array after the launch. -/
theorem feat_arr (c : Dev nD) :
    (dat0 (F := Ideal) V c).arrAt 4 cfg0.N = Cert.Attn.featArr (V c main_arg0) (V c main_arg2) :=
  (dat0 (F := Ideal) V c).arrAt_eq_of_cover 4 (Cert.Attn.featArr (V c main_arg0) (V c main_arg2))
    (fun t _ => flushed4_eq V c t) cover4

/-- An index of the array is in point `t`'s block of output 5 iff each coordinate is in the block's range on its axis. -/
theorem mem_blk5 (t : Fin cfg0.N) (i : S16x1x2048.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v2_1).slice (win0_5.rect t)).set ↔ _
  rw [View.set_slice_whole, Rect.mem_set_unit]
  exact Iff.rfl

/-- Every index of the first score array is in the block of the point numbered by its batch. -/
theorem cover5 (i : S16x1x2048.Idx) :
    ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 2048 := (i 2).isLt
  obtain ⟨-, -, -, -, -, -, -, -, -, -, -, -, e0, e1, e2, -⟩ := idx_facts ⟨(i 0).val, h0⟩
  have e0' : win0_5.index ⟨(i 0).val, h0⟩ (0 : Fin 3) = (i 0).val := e0
  refine ⟨⟨(i 0).val, h0⟩, flush0_5 _, ?_⟩
  rw [mem_blk5]
  intro a
  match a with
  | ⟨0, _⟩ => show win0_5.index ⟨(i 0).val, h0⟩ (0 : Fin 3) * 1 ≤ (i 0).val ∧ (i 0).val < win0_5.index ⟨(i 0).val, h0⟩ (0 : Fin 3) * 1 + 1; omega
  | ⟨1, _⟩ => show win0_5.index ⟨(i 0).val, h0⟩ (1 : Fin 3) * 1 ≤ (i 1).val ∧ (i 1).val < win0_5.index ⟨(i 0).val, h0⟩ (1 : Fin 3) * 1 + 1; omega
  | ⟨2, _⟩ => show win0_5.index ⟨(i 0).val, h0⟩ (2 : Fin 3) * 2048 ≤ (i 2).val ∧ (i 2).val < win0_5.index ⟨(i 0).val, h0⟩ (2 : Fin 3) * 2048 + 2048; omega

/-- What point `t` writes back to the first score array is block `t` of the scores of the projected features against
    the row held in `main_v0`. -/
theorem flushed5_eq (c : Dev nD) (t : Fin cfg0.N) :
    (dat0 (F := Ideal) V c).flushed 5 t
      = ((cfg0.win 5).blk t).view.read (Elt Ideal)
          (Cert.Attn.scoreRowArr (Cert.Attn.featArr (V c main_arg0) (V c main_arg2)) (V c main_v0)) := by
  show (cfg0.win 5).cut (grid0.coords t) ((dat0 (F := Ideal) V c).after 5 t) = _
  rw [after0_5]
  unfold out0_5
  rw [View.canon_unit_zero hz3]
  simp only [View.ld_unit_zero (S := S1x2048x256) hz3, View.ld_unit_zero (S := S256x128) hz2,
    View.ld_unit_zero (S := S1x128) hz2]
  rw [pay3_eq]
  have hb : t.val < 16 := t.isLt
  obtain ⟨-, -, -, -, -, -, -, -, -, -, -, -, e0, e1, e2, -⟩ := idx_facts t
  funext j
  show scorePay (iblk0 V c 0 t) (iblk0 V c 1 t) (iblk0 V c 2 t) j
    = Cert.Attn.scoreRowArr (Cert.Attn.featArr (V c main_arg0) (V c main_arg2)) (V c main_v0)
        (((cfg0.win 5).blk t).view.emb j)
  have hemb : ((cfg0.win 5).blk t).view.emb j = (ix3 (⟨t.val, hb⟩ : Fin 16) (j 1) (j 2) : S16x1x2048.Idx) := by
    funext a; apply Fin.ext
    match a with
    | ⟨0, _⟩ => show win0_5.index t (0 : Fin 3) * 1 + 1 * (j 0).val = t.val; have hj : (j 0).val < 1 := (j 0).isLt; omega
    | ⟨1, _⟩ => show win0_5.index t (1 : Fin 3) * 1 + 1 * (j 1).val = (j 1).val; omega
    | ⟨2, _⟩ => show win0_5.index t (2 : Fin 3) * 2048 + 1 * (j 2).val = (j 2).val; omega
  refine ((congrArg _ (eq_ix3 j)).trans
    (score_block (V c main_arg0) (V c main_arg2) (V c main_v0) (iblk0 V c 0 t) (iblk0 V c 1 t) (iblk0 V c 2 t)
      ⟨t.val, hb⟩ (xblk_at V c t hb) (wblk_at V c t) (r0blk_at V c t) (j 0) (j 1) (j 2))).trans (congrArg _ hemb.symm)

/-- An index of the array is in point `t`'s block of output 6 iff each coordinate is in the block's range on its axis. -/
theorem mem_blk6 (t : Fin cfg0.N) (i : S16x1x2048.Idx) :
    i ∈ ((cfg0.win 6).blk t).view.set ↔ ∀ a : Fin 3, win0_6.index t a * S1x1x2048.size a ≤ (i a).val
      ∧ (i a).val < win0_6.index t a * S1x1x2048.size a + S1x1x2048.size a := by
  show i ∈ ((View.whole main_v2_2).slice (win0_6.rect t)).set ↔ _
  rw [View.set_slice_whole, Rect.mem_set_unit]
  exact Iff.rfl

/-- Every index of the second score array is in the block of the point numbered by its batch. -/
theorem cover6 (i : S16x1x2048.Idx) :
    ∃ t : Fin cfg0.N, (cfg0.win 6).flush t = true ∧ i ∈ ((cfg0.win 6).blk t).view.set := by
  have h0 : (i 0).val < 16 := (i 0).isLt
  have h1 : (i 1).val < 1 := (i 1).isLt
  have h2 : (i 2).val < 2048 := (i 2).isLt
  obtain ⟨-, -, -, -, -, -, -, -, -, -, -, -, -, -, -, e0, e1, e2⟩ := idx_facts ⟨(i 0).val, h0⟩
  have e0' : win0_6.index ⟨(i 0).val, h0⟩ (0 : Fin 3) = (i 0).val := e0
  refine ⟨⟨(i 0).val, h0⟩, flush0_6 _, ?_⟩
  rw [mem_blk6]
  intro a
  match a with
  | ⟨0, _⟩ => show win0_6.index ⟨(i 0).val, h0⟩ (0 : Fin 3) * 1 ≤ (i 0).val ∧ (i 0).val < win0_6.index ⟨(i 0).val, h0⟩ (0 : Fin 3) * 1 + 1; omega
  | ⟨1, _⟩ => show win0_6.index ⟨(i 0).val, h0⟩ (1 : Fin 3) * 1 ≤ (i 1).val ∧ (i 1).val < win0_6.index ⟨(i 0).val, h0⟩ (1 : Fin 3) * 1 + 1; omega
  | ⟨2, _⟩ => show win0_6.index ⟨(i 0).val, h0⟩ (2 : Fin 3) * 2048 ≤ (i 2).val ∧ (i 2).val < win0_6.index ⟨(i 0).val, h0⟩ (2 : Fin 3) * 2048 + 2048; omega

/-- What point `t` writes back to the second score array is block `t` of the scores of the projected features against
    the row held in `main_v1`. -/
theorem flushed6_eq (c : Dev nD) (t : Fin cfg0.N) :
    (dat0 (F := Ideal) V c).flushed 6 t
      = ((cfg0.win 6).blk t).view.read (Elt Ideal)
          (Cert.Attn.scoreRowArr (Cert.Attn.featArr (V c main_arg0) (V c main_arg2)) (V c main_v1)) := by
  show (cfg0.win 6).cut (grid0.coords t) ((dat0 (F := Ideal) V c).after 6 t) = _
  rw [after0_6]
  unfold out0_6
  rw [View.canon_unit_zero hz3]
  simp only [View.ld_unit_zero (S := S1x2048x256) hz3, View.ld_unit_zero (S := S256x128) hz2,
    View.ld_unit_zero (S := S1x128) hz2]
  rw [pay4_eq]
  have hb : t.val < 16 := t.isLt
  obtain ⟨-, -, -, -, -, -, -, -, -, -, -, -, -, -, -, e0, e1, e2⟩ := idx_facts t
  funext j
  show scorePay (iblk0 V c 0 t) (iblk0 V c 1 t) (iblk0 V c 3 t) j
    = Cert.Attn.scoreRowArr (Cert.Attn.featArr (V c main_arg0) (V c main_arg2)) (V c main_v1)
        (((cfg0.win 6).blk t).view.emb j)
  have hemb : ((cfg0.win 6).blk t).view.emb j = (ix3 (⟨t.val, hb⟩ : Fin 16) (j 1) (j 2) : S16x1x2048.Idx) := by
    funext a; apply Fin.ext
    match a with
    | ⟨0, _⟩ => show win0_6.index t (0 : Fin 3) * 1 + 1 * (j 0).val = t.val; have hj : (j 0).val < 1 := (j 0).isLt; omega
    | ⟨1, _⟩ => show win0_6.index t (1 : Fin 3) * 1 + 1 * (j 1).val = (j 1).val; omega
    | ⟨2, _⟩ => show win0_6.index t (2 : Fin 3) * 2048 + 1 * (j 2).val = (j 2).val; omega
  refine ((congrArg _ (eq_ix3 j)).trans
    (score_block (V c main_arg0) (V c main_arg2) (V c main_v1) (iblk0 V c 0 t) (iblk0 V c 1 t) (iblk0 V c 3 t)
      ⟨t.val, hb⟩ (xblk_at V c t hb) (wblk_at V c t) (r1blk_at V c t) (j 0) (j 1) (j 2))).trans (congrArg _ hemb.symm)

/-- The first score array after the launch (against the weight row held in main_v0). -/
theorem score1_arr (c : Dev nD) :
    (dat0 (F := Ideal) V c).arrAt 5 cfg0.N
      = Cert.Attn.scoreRowArr (Cert.Attn.featArr (V c main_arg0) (V c main_arg2)) (V c main_v0) :=
  (dat0 (F := Ideal) V c).arrAt_eq_of_cover 5
    (Cert.Attn.scoreRowArr (Cert.Attn.featArr (V c main_arg0) (V c main_arg2)) (V c main_v0))
    (fun t _ => flushed5_eq V c t) cover5

/-- The second score array after the launch (against the weight row held in main_v1). -/
theorem score2_arr (c : Dev nD) :
    (dat0 (F := Ideal) V c).arrAt 6 cfg0.N
      = Cert.Attn.scoreRowArr (Cert.Attn.featArr (V c main_arg0) (V c main_arg2)) (V c main_v1) :=
  (dat0 (F := Ideal) V c).arrAt_eq_of_cover 6
    (Cert.Attn.scoreRowArr (Cert.Attn.featArr (V c main_arg0) (V c main_arg2)) (V c main_v1))
    (fun t _ => flushed6_eq V c t) cover6

end Cert.KernelIdeal.Region0

end
-- ==== Proof.Region1.lean ====
/-
  What the second launch leaves in its output array, for any contents `V` of the buffers at its entry: the attention
  layer `Attn.outK` of the two score arrays, the adjacency and the feature array as `V` holds them. Grid point (b, q)
  handles the 512 query nodes 512·q … 512·q + 511 of batch `b` against all 2048 key nodes.

  The body's arithmetic is read in two stages. First the tile of logits `scoreTile`: entry (p, k) is the rectified sum
  of query row p's score and key k's score where the adjacency entry is positive, the fill elsewhere (`scoreTile_at`).
  Then `attend`, from any tile of logits G and feature matrix H: each row's maximum, the exponentials of the logits less
  it, their row sums, the contraction of the weights with H over the keys, and the quotient (`attend_at`). The stored
  block is the exponential linear unit of that quotient (`stored_at`). Last, the blocks are placed in the arrays: entry
  (0, p, o) of point (b, q)'s output block is entry (b, 512·q + p, o) of the result, its query score is entry
  (b, 0, 512·q + p), its adjacency row is row 512·q + p of batch b, and the key scores and features are batch b's whole
  row and matrix; the 64 points' blocks cover the result array.
-/
import proofs.«405790_j12214886990524_3_alg».proof.Proof.Gen.KernelIdeal.Frame
import proofs.«405790_j12214886990524_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Two layout operations at an index: a vector as a column, and a column copied along the rows -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions at an index -/

/-- A row's maximum: the fold of `max` from the accumulator's value over the row's 2048 entries. -/
theorem rowMax_at (G : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 G 0xFF800000#32 h hφ hacc (ix1 p)
      = (Finset.univ : Finset (Fin 2048)).fold max Attn.negInf fun k => G (ix2 p k) := by
  refine (Ideal.multiReduction_maximumf_single G _ h hφ hacc (ix1 p)).trans ?_
  show (Finset.univ : Finset (Fin 2048)).fold max Attn.negInf (G ∘ h.lift (ix1 p)) = _
  congr 1
  funext k
  refine congrArg G (funext fun a => Fin.ext ?_)
  match a with
  | ⟨0, _⟩ => rfl
  | ⟨1, _⟩ => rfl

/-- A row's sum over its 2048 entries. -/
theorem rowSum_at (P : FVec Ideal S512x2048 .f32) (h : S512x2048.Reduces [1] S512) (hφ : FKind.Formats .f32)
    (hacc : (0x00000000#32 : BitVec 32) = FKind.add.neutral .f32 hφ) (p : Fin 512) :
    multiReduction .add [1] S512 P 0x00000000#32 h hφ hacc (ix1 p) = ∑ k : Fin 2048, P (ix2 p k) := by
  refine (Ideal.multiReduction_add_single P _ h hφ hacc (ix1 p)).trans ?_
  show ∑ k : Fin 2048, P (h.lift (ix1 p) k) = _
  refine Finset.sum_congr rfl fun k _ => congrArg P (funext fun a => Fin.ext ?_)
  match a with
  | ⟨0, _⟩ => rfl
  | ⟨1, _⟩ => rfl

/-! ## The contraction over the keys: its operand indices -/

theorem lhs_axis0 (j : S512x128.Idx) (k : dot_S512x2048_S2048x128_S512x128_1_0_0_1_n_n.contr.Idx) :
    (dot_S512x2048_S2048x128_S512x128_1_0_0_1_n_n.lhsIdx j k 0).val = (j 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl

theorem lhs_axis1 (j : S512x128.Idx) (k : dot_S512x2048_S2048x128_S512x128_1_0_0_1_n_n.contr.Idx) :
    (dot_S512x2048_S2048x128_S512x128_1_0_0_1_n_n.lhsIdx j k 1).val = (k ⟨0, by decide⟩).val :=
  dot_S512x2048_S2048x128_S512x128_1_0_0_1_n_n.lhsIdx_val_of_single (cl := 1) rfl j k

theorem rhs_axis0 (j : S512x128.Idx) (k : dot_S512x2048_S2048x128_S512x128_1_0_0_1_n_n.contr.Idx) :
    (dot_S512x2048_S2048x128_S512x128_1_0_0_1_n_n.rhsIdx j k 0).val = (k ⟨0, by decide⟩).val :=
  dot_S512x2048_S2048x128_S512x128_1_0_0_1_n_n.rhsIdx_val_of_single (cr := 0) rfl j k

theorem rhs_axis1 (j : S512x128.Idx) (k : dot_S512x2048_S2048x128_S512x128_1_0_0_1_n_n.contr.Idx) :
    (dot_S512x2048_S2048x128_S512x128_1_0_0_1_n_n.rhsIdx j k 1).val = (j 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- At output `(p, o)` and key `k` the left operand is read at `(p, k)` … -/
theorem lhsIdx_at (p : Fin 512) (o : Fin 128) (k : Fin 2048) :
    dot_S512x2048_S2048x128_S512x128_1_0_0_1_n_n.lhsIdx (ix2 p o)
      ((contrEquiv1 dot_S512x2048_S2048x128_S512x128_1_0_0_1_n_n 2048 rfl rfl).symm k) = ix2 p k := by
  funext a; apply Fin.ext
  match a with
  | ⟨0, _⟩ => exact lhs_axis0 _ _
  | ⟨1, _⟩ => exact (lhs_axis1 _ _).trans (contrEquiv1_symm_val _ 2048 rfl rfl k)

/-- … and the right operand at `(k, o)`. -/
theorem rhsIdx_at (p : Fin 512) (o : Fin 128) (k : Fin 2048) :
    dot_S512x2048_S2048x128_S512x128_1_0_0_1_n_n.rhsIdx (ix2 p o)
      ((contrEquiv1 dot_S512x2048_S2048x128_S512x128_1_0_0_1_n_n 2048 rfl rfl).symm k) = ix2 k o := by
  funext a; apply Fin.ext
  match a with
  | ⟨0, _⟩ => exact (rhs_axis0 _ _).trans (contrEquiv1_symm_val _ 2048 rfl rfl k)
  | ⟨1, _⟩ => exact rhs_axis1 _ _

/-- The product into a zero accumulator at `(p, o)`: the sum over the 2048 keys. -/
theorem matmul_at (L : FVec Ideal S512x2048 .bf16) (R : FVec Ideal S2048x128 .bf16) (p : Fin 512) (o : Fin 128) :
    matmul dot_S512x2048_S2048x128_S512x128_1_0_0_1_n_n none L R (constant S512x128 .f32 0x00000000#32) (ix2 p o)
      = ∑ k : Fin 2048, L (ix2 p k) * R (ix2 k o) := by
  refine (Ideal.matmul_constant_zero_apply _ none L R (ix2 p o)).trans ?_
  refine (Equiv.sum_comp (contrEquiv1 dot_S512x2048_S2048x128_S512x128_1_0_0_1_n_n 2048 rfl rfl).symm _).symm.trans ?_
  refine Finset.sum_congr rfl fun k _ => ?_
  rw [lhsIdx_at, rhsIdx_at]

/-! ## The tile of logits: query rows of the tile against all keys

The body first lays the 512 scores of the tile's query nodes down a column and the 2048 key scores along a row, adds
them, rectifies the sum as a maximum with its multiple by the slope, and keeps it where the adjacency entry is positive. -/

/-- The query scores copied along the rows: entry `(p, k)` is the score of query row `p`. -/
def queryCol (x0 : Vec Ideal S1x1x512 .f32) : FVec Ideal S512x2048 .f32 :=
  broadcastTo S512x2048 (transpose S512x1 [1, 0] (shapeCast S1x512 x0 shapeCasts_S1x1x512_S1x512) transposes_S1x512_p1_0_S512x1)
    broadcasts_S512x1_S512x2048

/-- The key scores copied down the columns: entry `(p, k)` is the score of key `k`. -/
def keyRow (x1 : Vec Ideal S1x1x2048 .f32) : FVec Ideal S512x2048 .f32 :=
  broadcastTo S512x2048 (shapeCast S1x2048 x1 shapeCasts_S1x1x2048_S1x2048) broadcasts_S1x2048_S512x2048

/-- The adjacency block without its unit axis. -/
def adjTile (x2 : Vec Ideal S1x512x2048 .i32) : IVec S512x2048 32 :=
  shapeCast S512x2048 x2 shapeCasts_S1x512x2048_S512x2048

/-- The masked, rectified sums. -/
def scoreTile (x0 : Vec Ideal S1x1x512 .f32) (x1 : Vec Ideal S1x1x2048 .f32) (x2 : Vec Ideal S1x512x2048 .i32) :
    FVec Ideal S512x2048 .f32 :=
  select (cmpi .sgt (adjTile x2) (broadcast S512x2048 0#32))
    (maximumf (addf (queryCol x0) (keyRow x1))
      (mulf (broadcast S512x2048 (Scalar.ofBits .f32 0x3E4CCCCD#32)) (addf (queryCol x0) (keyRow x1))))
    (broadcast S512x2048 (Scalar.ofBits .f32 0xD9FFCB9E#32))

theorem queryCol_at (x0 : Vec Ideal S1x1x512 .f32) (p : Fin 512) (k : Fin 2048) :
    queryCol x0 (ix2 p k) = x0 (ix3 (0 : Fin 1) (0 : Fin 1) p) :=
  (broadcastTo_a1_ab_apply _ _ p k).trans
    ((transpose_ix2_apply _ _ p (0 : Fin 1)).trans (shapeCast_1ab_ab_apply x0 _ (0 : Fin 1) p))

theorem keyRow_at (x1 : Vec Ideal S1x1x2048 .f32) (p : Fin 512) (k : Fin 2048) :
    keyRow x1 (ix2 p k) = x1 (ix3 (0 : Fin 1) (0 : Fin 1) k) :=
  (broadcastTo_1b_ab_apply _ _ p k).trans (shapeCast_1ab_ab_apply x1 _ (0 : Fin 1) k)

theorem adjTile_at (x2 : Vec Ideal S1x512x2048 .i32) (p : Fin 512) (k : Fin 2048) :
    adjTile x2 (ix2 p k) = x2 (ix3 (0 : Fin 1) p k) :=
  shapeCast_1ab_ab_apply x2 _ p k

/-- Row `p` of the tile as a function of the key: the logits of the tile's query row `p`, from the blocks. -/
def tileRow (x0 : Vec Ideal S1x1x512 .f32) (x1 : Vec Ideal S1x1x2048 .f32) (x2 : Vec Ideal S1x512x2048 .i32) (p : Fin 512) :
    Fin 2048 → EReal :=
  fun k => Scalar.select (IntOp.cmpi .sgt (x2 (ix3 (0 : Fin 1) p k)) 0#32)
    (Attn.leakyK (x0 (ix3 (0 : Fin 1) (0 : Fin 1) p) + x1 (ix3 (0 : Fin 1) (0 : Fin 1) k))) Attn.fill

theorem scoreTile_at (x0 : Vec Ideal S1x1x512 .f32) (x1 : Vec Ideal S1x1x2048 .f32) (x2 : Vec Ideal S1x512x2048 .i32)
    (p : Fin 512) (k : Fin 2048) : scoreTile x0 x1 x2 (ix2 p k) = tileRow x0 x1 x2 p k := by
  show Scalar.select (IntOp.cmpi .sgt (adjTile x2 (ix2 p k)) 0#32)
    (Attn.leakyK (queryCol x0 (ix2 p k) + keyRow x1 (ix2 p k))) Attn.fill = _
  rw [adjTile_at, queryCol_at, keyRow_at]
  rfl

/-! ## From a tile of logits to the attention output -/

/-- Each row's maximum copied along the row. -/
def rowMaxCol (G : FVec Ideal S512x2048 .f32) : FVec Ideal S512x2048 .f32 :=
  broadcastTo S512x2048
    (shapeCast S512x1 (multiReduction .maximumf [1] S512 G 0xFF800000#32 reduces_S512x2048_S512 (.inl rfl) rfl) shapeCasts_S512_S512x1)
    broadcasts_S512x1_S512x2048

/-- The unnormalised weights: the exponential of each logit less its row's maximum. -/
def weightTile (G : FVec Ideal S512x2048 .f32) : FVec Ideal S512x2048 .f32 := exp (subf G (rowMaxCol G))

/-- Each row's sum copied along the 128 output columns. -/
def rowSumCol (P : FVec Ideal S512x2048 .f32) : FVec Ideal S512x128 .f32 :=
  broadcastTo S512x128
    (shapeCast S512x1 (multiReduction .add [1] S512 P 0x00000000#32 reduces_S512x2048_S512 (.inl rfl) rfl) shapeCasts_S512_S512x1)
    broadcasts_S512x1_S512x128

/-- The weights contracted with the features over the keys, then divided by the rows' sums. -/
def attend (G : FVec Ideal S512x2048 .f32) (H : FVec Ideal S2048x128 .bf16) : FVec Ideal S512x128 .f32 :=
  divf (matmul dot_S512x2048_S2048x128_S512x128_1_0_0_1_n_n none (truncf .bf16 (weightTile G) bitsLt_bf16_f32) H
      (constant S512x128 .f32 0x00000000#32))
    (rowSumCol (weightTile G))

/-- The body's quotient is `attend` of the tile of logits and the feature block. -/
theorem pay2_eq (x0 : Vec Ideal S1x1x512 .f32) (x1 : Vec Ideal S1x1x2048 .f32) (x2 : Vec Ideal S1x512x2048 .i32)
    (x3 : Vec Ideal S1x2048x128 .bf16) :
    k1_pay2 (F := Ideal) x0 x1 x2 x3
      = attend (scoreTile x0 x1 x2) (shapeCast S2048x128 x3 shapeCasts_S1x2048x128_S2048x128) := rfl

theorem rowMaxCol_at (G : FVec Ideal S512x2048 .f32) (p : Fin 512) (k : Fin 2048) :
    rowMaxCol G (ix2 p k) = Attn.rowMax fun k => G (ix2 p k) :=
  (broadcastTo_a1_ab_apply _ _ p k).trans ((shapeCast_a_a1_apply _ _ p (0 : Fin 1)).trans (rowMax_at G _ _ _ p))

theorem weightTile_at (G : FVec Ideal S512x2048 .f32) (p : Fin 512) (k : Fin 2048) :
    weightTile G (ix2 p k) = Attn.weight (fun k => G (ix2 p k)) k := by
  show Ideal.exp (G (ix2 p k) - rowMaxCol G (ix2 p k)) = _
  rw [rowMaxCol_at]
  rfl

theorem rowSumCol_at (P : FVec Ideal S512x2048 .f32) (p : Fin 512) (o : Fin 128) :
    rowSumCol P (ix2 p o) = ∑ k : Fin 2048, P (ix2 p k) :=
  (broadcastTo_a1_ab_apply _ _ p o).trans ((shapeCast_a_a1_apply _ _ p (0 : Fin 1)).trans (rowSum_at P _ _ _ p))

theorem attend_at (G : FVec Ideal S512x2048 .f32) (H : FVec Ideal S2048x128 .bf16) (p : Fin 512) (o : Fin 128) :
    attend G H (ix2 p o)
      = Ideal.div (∑ k : Fin 2048, Attn.weight (fun k => G (ix2 p k)) k * H (ix2 k o)) (Attn.denom fun k => G (ix2 p k)) := by
  show Ideal.div (matmul dot_S512x2048_S2048x128_S512x128_1_0_0_1_n_n none (truncf .bf16 (weightTile G) bitsLt_bf16_f32) H
      (constant S512x128 .f32 0x00000000#32) (ix2 p o)) (rowSumCol (weightTile G) (ix2 p o)) = _
  rw [matmul_at, rowSumCol_at]
  simp only [truncf_apply, weightTile_at]
  rfl

/-- The quotient at `(p, o)`: the weighted sum of the feature block's column `o` over the keys, divided by the sum of
    the weights of query row `p`. -/
theorem pay2_at (x0 : Vec Ideal S1x1x512 .f32) (x1 : Vec Ideal S1x1x2048 .f32) (x2 : Vec Ideal S1x512x2048 .i32)
    (x3 : Vec Ideal S1x2048x128 .bf16) (p : Fin 512) (o : Fin 128) :
    k1_pay2 (F := Ideal) x0 x1 x2 x3 (ix2 p o)
      = Ideal.div (∑ k : Fin 2048, Attn.weight (tileRow x0 x1 x2 p) k * x3 (ix3 (0 : Fin 1) k o))
          (Attn.denom (tileRow x0 x1 x2 p)) := by
  rw [pay2_eq, attend_at]
  have hrow : (fun k => scoreTile x0 x1 x2 (ix2 p k)) = tileRow x0 x1 x2 p := funext fun k => scoreTile_at x0 x1 x2 p k
  rw [hrow]
  simp only [shapeCast_1ab_ab_apply x3 shapeCasts_S1x2048x128_S2048x128]

/-- The stored block at `(u, p, o)`: the exponential linear unit of the quotient. -/
theorem stored_at (x0 : Vec Ideal S1x1x512 .f32) (x1 : Vec Ideal S1x1x2048 .f32) (x2 : Vec Ideal S1x512x2048 .i32)
    (x3 : Vec Ideal S1x2048x128 .bf16) (u : Fin 1) (p : Fin 512) (o : Fin 128) :
    k1_pay1 (k1_pay2 (F := Ideal) x0 x1 x2 x3) (k1_pay3 (F := Ideal) x0 x1 x2 x3) (k1_pay4 (F := Ideal) x0 x1 x2 x3) (ix3 u p o)
      = Attn.eluK (k1_pay2 (F := Ideal) x0 x1 x2 x3 (ix2 p o)) := by
  unfold k1_pay1
  refine (shapeCast_ab_1ab_apply _ _ u p o).trans ?_
  show Scalar.select (Ideal.cmp .ogt (k1_pay2 (F := Ideal) x0 x1 x2 x3 (ix2 p o)) (Ideal.ofBits .f32 0x00000000#32))
      (k1_pay2 (F := Ideal) x0 x1 x2 x3 (ix2 p o))
      (Ideal.exp (min (k1_pay2 (F := Ideal) x0 x1 x2 x3 (ix2 p o)) (Ideal.ofBits .f32 0x00000000#32)) - Attn.one) = _
  rw [Ideal.ofBits_zero_f32]
  rfl

/-! ## From blocks to the array -/

theorem hz : (![0, 0, 0] : Fin 3 → Nat) = fun _ => 0 := funext fun a => by fin_cases a <;> rfl

/-- What the body leaves in the output block at `(u, p, o)`, from the four loaded blocks. -/
theorem out_block_at (x0 : Vec Ideal S1x1x512 .f32) (x1 : Vec Ideal S1x1x2048 .f32) (x2 : Vec Ideal S1x512x2048 .i32)
    (x3 : Vec Ideal S1x2048x128 .bf16) (u : Fin 1) (p : Fin 512) (o : Fin 128) :
    out1_4 (F := Ideal) x0 x1 x2 x3 (ix3 u p o)
      = Attn.eluK (Ideal.div (∑ k : Fin 2048, Attn.weight (tileRow x0 x1 x2 p) k * x3 (ix3 (0 : Fin 1) k o))
          (Attn.denom (tileRow x0 x1 x2 p))) := by
  unfold out1_4
  rw [View.canon_unit_zero hz]
  simp only [View.ld_unit_zero (S := S1x1x512) hz, View.ld_unit_zero (S := S1x1x2048) hz,
    View.ld_unit_zero (S := S1x512x2048) hz, View.ld_unit_zero (S := S1x2048x128) hz]
  rw [stored_at, pay2_at]

/-- The same as the layer at node `n` of batch `b`, when the four blocks are the arrays' parts that node reads: its own
    score, every key's score, its adjacency row, and every key's feature at output column `o'`. -/
theorem out_block_eq_layer (x0 : Vec Ideal S1x1x512 .f32) (x1 : Vec Ideal S1x1x2048 .f32) (x2 : Vec Ideal S1x512x2048 .i32)
    (x3 : Vec Ideal S1x2048x128 .bf16) (s1 s2 : Attn.SScore.Idx → EReal) (adj : Attn.SAdj.Idx → BitVec 32)
    (h : Attn.SFeat.Idx → EReal) (u : Fin 1) (p : Fin 512) (o : Fin 128) (b : Fin 16) (n : Fin 2048) (o' : Fin 128)
    (e0 : x0 (ix3 (0 : Fin 1) (0 : Fin 1) p) = s1 (ix3 b (0 : Fin 1) n))
    (e1 : ∀ k : Fin 2048, x1 (ix3 (0 : Fin 1) (0 : Fin 1) k) = s2 (ix3 b (0 : Fin 1) k))
    (e2 : ∀ k : Fin 2048, x2 (ix3 (0 : Fin 1) p k) = adj (ix3 b n k))
    (e3 : ∀ k : Fin 2048, x3 (ix3 (0 : Fin 1) k o) = h (ix3 b k o')) :
    out1_4 (F := Ideal) x0 x1 x2 x3 (ix3 u p o) = Attn.outK s1 s2 adj h (ix3 b n o') := by
  rw [out_block_at]
  have hrow : tileRow x0 x1 x2 p = Attn.logits Attn.leakyK s1 s2 adj b n := funext fun k => by
    unfold tileRow Attn.logits
    rw [e0, e1 k, e2 k]
  rw [hrow]
  simp only [e3]
  rfl

/-- The printed index maps over the grid: point `t` is batch `b` and query tile `q`; every input window is at batch `b`,
    the query scores and the adjacency also at tile `q`, the key scores and the features at their whole row. -/
theorem idx_facts : ∀ t : Fin cfg1.N,
    win1_0.index t (0 : Fin 3) = win1_4.index t (0 : Fin 3) ∧ win1_0.index t (1 : Fin 3) = 0
    ∧ win1_0.index t (2 : Fin 3) = win1_4.index t (1 : Fin 3)
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = win1_4.index t (1 : Fin 3)
    ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 15 ∧ win1_4.index t (1 : Fin 3) ≤ 3 ∧ win1_4.index t (2 : Fin 3) = 0 :=
  (by decide +kernel : ∀ t : Fin grid1.N, _)

/-- Every pair (batch, query tile) is some point's. -/
theorem idx_onto : ∀ (b : Fin 16) (q : Fin 4), ∃ t : Fin cfg1.N, win1_4.index t = ![b.val, q.val, 0] :=
  (by decide +kernel : ∀ (b : Fin 16) (q : Fin 4), ∃ t : Fin grid1.N, win1_4.index t = ![b.val, q.val, 0])

variable (V : (c : Dev nD) → (b : Ref sig .tc) → Buf (Elt Ideal) ((c : Thread nD τ).loc b))

/-- What point `t` writes back is block `t` of the layer of the arrays as the launch finds them: entry `(u, p, o)` of
    the block is node `512·q + p` of batch `b` at output column `o`, and each input block is read where that node reads
    its array. -/
theorem flushed_eq (c : Dev nD) (t : Fin cfg1.N) :
    (dat1 (F := Ideal) V c).flushed 4 t
      = ((cfg1.win 4).blk t).view.read (Elt Ideal)
          (Attn.outK (V c main_v2_1) (V c main_v2_2) (V c main_arg1) (V c main_v2_0)) := by
  show (cfg1.win 4).cut (grid1.coords t) ((dat1 (F := Ideal) V c).after 4 t) = _
  rw [after1_4]
  obtain ⟨a0, a1, a2, b0, b1, b2, c0, c1, c2, d0, d1, d2, g0, g1, g2⟩ := idx_facts t
  refine funext fun (j : S1x512x128.Idx) => ?_
  obtain ⟨u, p, o, rfl⟩ : ∃ (u : Fin 1) (p : Fin 512) (o : Fin 128), j = ix3 u p o := ⟨j 0, j 1, j 2, eq_ix3 j⟩
  have hu : u.val = 0 := by omega
  have hp : p.val < 512 := p.isLt
  show out1_4 (iblk1 V c 0 t) (iblk1 V c 1 t) (iblk1 V c 2 t) (iblk1 V c 3 t) (ix3 u p o)
    = Attn.outK (V c main_v2_1) (V c main_v2_2) (V c main_arg1) (V c main_v2_0) (((cfg1.win 4).blk t).view.emb (ix3 u p o))
  refine (out_block_eq_layer (iblk1 V c 0 t) (iblk1 V c 1 t) (iblk1 V c 2 t) (iblk1 V c 3 t)
    (V c main_v2_1) (V c main_v2_2) (V c main_arg1) (V c main_v2_0) u p o
    (⟨win1_4.index t (0 : Fin 3), by omega⟩ : Fin 16) (⟨win1_4.index t (1 : Fin 3) * 512 + p.val, by omega⟩ : Fin 2048) o
    ?_ ?_ ?_ ?_).trans (congrArg (Attn.outK (V c main_v2_1) (V c main_v2_2) (V c main_arg1) (V c main_v2_0)) ?_)
  · -- the query score of row `p`: entry `512·q + p` of batch `b`'s score row
    show V c main_v2_1 (((cfg1.win 0).blk t).view.emb (ix3 (0 : Fin 1) (0 : Fin 1) p)) = _
    refine congrArg (V c main_v2_1) (funext fun a => Fin.ext ?_)
    match a with
    | ⟨0, _⟩ => show win1_0.index t (0 : Fin 3) * 1 + 1 * 0 = win1_4.index t (0 : Fin 3); omega
    | ⟨1, _⟩ => show win1_0.index t (1 : Fin 3) * 1 + 1 * 0 = 0; omega
    | ⟨2, _⟩ => show win1_0.index t (2 : Fin 3) * 512 + 1 * p.val = win1_4.index t (1 : Fin 3) * 512 + p.val; omega
  · -- every key's score: batch `b`'s whole score row
    intro k
    show V c main_v2_2 (((cfg1.win 1).blk t).view.emb (ix3 (0 : Fin 1) (0 : Fin 1) k)) = _
    refine congrArg (V c main_v2_2) (funext fun a => Fin.ext ?_)
    match a with
    | ⟨0, _⟩ => show win1_1.index t (0 : Fin 3) * 1 + 1 * 0 = win1_4.index t (0 : Fin 3); omega
    | ⟨1, _⟩ => show win1_1.index t (1 : Fin 3) * 1 + 1 * 0 = 0; omega
    | ⟨2, _⟩ => show win1_1.index t (2 : Fin 3) * 2048 + 1 * k.val = k.val; omega
  · -- the adjacency row of node `512·q + p` of batch `b`
    intro k
    show V c main_arg1 (((cfg1.win 2).blk t).view.emb (ix3 (0 : Fin 1) p k)) = _
    refine congrArg (V c main_arg1) (funext fun a => Fin.ext ?_)
    match a with
    | ⟨0, _⟩ => show win1_2.index t (0 : Fin 3) * 1 + 1 * 0 = win1_4.index t (0 : Fin 3); omega
    | ⟨1, _⟩ => show win1_2.index t (1 : Fin 3) * 512 + 1 * p.val = win1_4.index t (1 : Fin 3) * 512 + p.val; omega
    | ⟨2, _⟩ => show win1_2.index t (2 : Fin 3) * 2048 + 1 * k.val = k.val; omega
  · -- every key's feature at column `o`: batch `b`'s whole feature matrix
    intro k
    show V c main_v2_0 (((cfg1.win 3).blk t).view.emb (ix3 (0 : Fin 1) k o)) = _
    refine congrArg (V c main_v2_0) (funext fun a => Fin.ext ?_)
    match a with
    | ⟨0, _⟩ => show win1_3.index t (0 : Fin 3) * 1 + 1 * 0 = win1_4.index t (0 : Fin 3); omega
    | ⟨1, _⟩ => show win1_3.index t (1 : Fin 3) * 2048 + 1 * k.val = k.val; omega
    | ⟨2, _⟩ => show win1_3.index t (2 : Fin 3) * 128 + 1 * o.val = o.val; omega
  · -- the output block's entry `(u, p, o)` sits at `(b, 512·q + p, o)` of the array
    refine funext fun a => Fin.ext ?_
    match a with
    | ⟨0, _⟩ => show win1_4.index t (0 : Fin 3) = win1_4.index t (0 : Fin 3) * 1 + 1 * u.val; omega
    | ⟨1, _⟩ => show win1_4.index t (1 : Fin 3) * 512 + p.val = win1_4.index t (1 : Fin 3) * 512 + 1 * p.val; omega
    | ⟨2, _⟩ => show o.val = win1_4.index t (2 : Fin 3) * 128 + 1 * o.val; omega

/-- An index of the array is in point `t`'s block iff each coordinate is in the block's range on its axis. -/
theorem mem_blk (t : Fin cfg1.N) (i : S16x2048x128.Idx) :
    i ∈ ((cfg1.win 4).blk t).view.set ↔ ∀ a : Fin 3, win1_4.index t a * S1x512x128.size a ≤ (i a).val
      ∧ (i a).val < win1_4.index t a * S1x512x128.size a + S1x512x128.size a := by
  show i ∈ ((View.whole main_v3).slice (win1_4.rect t)).set ↔ _
  rw [View.set_slice_whole, Rect.mem_set_unit]
  exact Iff.rfl

/-- Every entry of the array is in some point's block: node `n` of batch `b` is covered by the point of batch `b` and
    query tile `n / 512`. -/
theorem cover (i : S16x2048x128.Idx) :
    ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 128 ≤ (i 2).val ∧ (i 2).val < win1_4.index t (2 : Fin 3) * 128 + 128
    omega

/-- The output array after the launch. -/
theorem out_arr (c : Dev nD) :
    (dat1 (F := Ideal) V c).arrAt 4 cfg1.N
      = Cert.Attn.outK (V c main_v2_1) (V c main_v2_2) (V c main_arg1) (V c main_v2_0) :=
  (dat1 (F := Ideal) V c).arrAt_eq_of_cover 4
    (Cert.Attn.outK (V c main_v2_1) (V c main_v2_2) (V c main_arg1) (V c main_v2_0))
    (fun t _ => flushed_eq V c t) cover

end Cert.KernelIdeal.Region1

end
-- ==== Proof.KValue.lean ====
/-
  The idealized kernel's result as one function of its five arguments.

  The result array is what the second launch's write-backs leave; by that launch's value it is `Attn.outK` of the two
  score arrays, the adjacency and the feature array as they stand when the launch is entered. The adjacency is an
  argument that nothing before the launch writes; the other three are what the FIRST launch's write-backs leave, and by
  that launch's values they are the features `x · W` and the two scores of those features against the two weight rows
  as they stand when the first launch is entered. Those rows are the host's reshapes of the weight columns [128, 1]
  to [1, 128]: the same 128 entries (`colAsRow`), and x and W are arguments nothing has written. Put together this
  is `Attn.layerK` of the launch contents of the five arguments.
-/
import proofs.«405790_j12214886990524_3_alg».proof.Proof.Gen.KernelIdeal.Frame
import proofs.«405790_j12214886990524_3_alg».proof.Proof.Region0
import proofs.«405790_j12214886990524_3_alg».proof.Proof.Region1
import proofs.«405790_j12214886990524_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first launch's entry: the arguments as launched, the two weight rows the reshaped columns -/

theorem entry_arg0 (c : Dev nD) : V1 (F := Ideal) m ρ c main_arg0 = m ((c : Thread nD τ).loc main_arg0) := by
  show StableHlo.after hostOps0 (W0 m ρ c) (Proc.devRef .tc main_arg0) = _
  after_results

theorem entry_arg1 (c : Dev nD) : V1 (F := Ideal) m ρ c main_arg1 = m ((c : Thread nD τ).loc main_arg1) := by
  show StableHlo.after hostOps0 (W0 m ρ c) (Proc.devRef .tc main_arg1) = _
  after_results

theorem entry_arg2 (c : Dev nD) : V1 (F := Ideal) m ρ c main_arg2 = m ((c : Thread nD τ).loc main_arg2) := by
  show StableHlo.after hostOps0 (W0 m ρ c) (Proc.devRef .tc main_arg2) = _
  after_results

/-- A column [128, 1] cast to the row [1, 128] holds the same entries. -/
theorem cast_col (a : S128x1.Idx → EReal) :
    shapeCast S1x128 a shapeCasts_S128x1_S1x128 = Cert.Attn.colAsRow a := by
  funext j
  unfold Cert.Attn.colAsRow
  refine shapeCast_apply a shapeCasts_S128x1_S1x128 j (ix2 (j 1) 0) ?_
  rw [Shape.rowMajor_val_two, Shape.rowMajor_val_two]
  have h0 : (j 0).val = 0 := by have := (j 0).isLt; simp at this; omega
  show (j 1).val * 1 + 0 = (j 0).val * 128 + (j 1).val
  omega

theorem entry_row1 (c : Dev nD) :
    V1 (F := Ideal) m ρ c main_v0 = Cert.Attn.colAsRow (m ((c : Thread nD τ).loc main_arg3)) := by
  rw [← cast_col]
  show StableHlo.after hostOps0 (W0 m ρ c) (Proc.devRef .tc main_v0) = _
  after_results
  rfl

theorem entry_row2 (c : Dev nD) :
    V1 (F := Ideal) m ρ c main_v1 = Cert.Attn.colAsRow (m ((c : Thread nD τ).loc main_arg4)) := by
  rw [← cast_col]
  show StableHlo.after hostOps0 (W0 m ρ c) (Proc.devRef .tc main_v1) = _
  after_results
  rfl

/-! ## The second launch's entry: what the first launch leaves -/

theorem mid_feat (c : Dev nD) :
    V2 (F := Ideal) m ρ c main_v2_0
      = Cert.Attn.featArr (m ((c : Thread nD τ).loc main_arg0)) (m ((c : Thread nD τ).loc main_arg2)) := by
  rw [← entry_arg0 m ρ c, ← entry_arg2 m ρ c, ← Region0.feat_arr (V1 m ρ) c]
  exact W2_arr m ρ c 4

theorem mid_score1 (c : Dev nD) :
    V2 (F := Ideal) m ρ c main_v2_1
      = Cert.Attn.scoreRowArr (Cert.Attn.featArr (m ((c : Thread nD τ).loc main_arg0)) (m ((c : Thread nD τ).loc main_arg2)))
          (Cert.Attn.colAsRow (m ((c : Thread nD τ).loc main_arg3))) := by
  rw [← entry_arg0 m ρ c, ← entry_arg2 m ρ c, ← entry_row1 m ρ c, ← Region0.score1_arr (V1 m ρ) c]
  exact W2_arr m ρ c 5

theorem mid_score2 (c : Dev nD) :
    V2 (F := Ideal) m ρ c main_v2_2
      = Cert.Attn.scoreRowArr (Cert.Attn.featArr (m ((c : Thread nD τ).loc main_arg0)) (m ((c : Thread nD τ).loc main_arg2)))
          (Cert.Attn.colAsRow (m ((c : Thread nD τ).loc main_arg4))) := by
  rw [← entry_arg0 m ρ c, ← entry_arg2 m ρ c, ← entry_row2 m ρ c, ← Region0.score2_arr (V1 m ρ) c]
  exact W2_arr m ρ c 6

theorem mid_adj (c : Dev nD) : V2 (F := Ideal) m ρ c main_arg1 = m ((c : Thread nD τ).loc main_arg1) :=
  (W2_of_ne m ρ c main_arg1 (by decide)).trans (entry_arg1 m ρ c)

/-! ## The result -/

/-- The result buffer at the last boundary is the layer of the launch contents of the five arguments. -/
theorem result_eq (c : Dev nD) :
    W3 (F := Ideal) m ρ c (Proc.devRef .tc main_v3)
      = Cert.Attn.layerK (m ((c : Thread nD τ).loc main_arg0)) (m ((c : Thread nD τ).loc main_arg1))
          (m ((c : Thread nD τ).loc main_arg2)) (m ((c : Thread nD τ).loc main_arg3)) (m ((c : Thread nD τ).loc main_arg4)) := by
  unfold Cert.Attn.layerK
  rw [← mid_score1 m ρ c, ← mid_score2 m ρ c, ← mid_feat m ρ c, ← mid_adj m ρ c, ← Region1.out_arr (V2 m ρ) c]
  exact W3_arr m ρ c 4

end Cert.KernelIdeal.Whole

end
-- ==== Proof.RefRun.lean ====
/-
  The reference program's @main as the list of its 51 host operations, in order, and its run: every weakly fair
  execution terminates with every buffer at the fold of those operations over the launch contents. The four functions
  @main calls (three choices by a mask and the final rectifier, which itself calls two more choices) are listed at
  their call sites over the call's own buffers, which is what executing a call means.
-/
import proofs.«405790_j12214886990524_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the three contractions and the score sum; the leaky rectifier as a choice on the
    sign; the adjacency mask; the row maximum, the exponentials, their row sum and the quotient; the contraction with
    the features; the final rectifier. -/
abbrev ops : List (HloOp τ sig (Elt F)) :=
  [ binary main_arg0 main_arg2 main_v0 (fun l r => Host.dotGeneral dot_S16x2048x256_S256x128_S16x2048x128_2_0_01_1_n_n none l r),
    binary main_v0 main_arg3 main_v1 (fun l r => Host.dotGeneral dot_S16x2048x128_S128x1_S16x2048x1_2_0_01_1_n_n none l r),
    binary main_v0 main_arg4 main_v2 (fun l r => Host.dotGeneral dot_S16x2048x128_S128x1_S16x2048x1_2_0_01_1_n_n none l r),
    unary main_v2 main_v3 (transpose S16x1x2048 [0, 2, 1] · transposes_S16x2048x1_S16x1x2048_0_2_1),
    unary main_v1 main_v4 (broadcastInDim S16x2048x2048 ![0, 1, 2] bcast_S16x2048x1_S16x2048x2048_0_1_2),
    unary main_v3 main_v5 (broadcastInDim S16x2048x2048 ![0, 1, 2] bcast_S16x1x2048_S16x2048x2048_0_1_2),
    binary main_v4 main_v5 main_v6 addf,
    nullary main_cst (constant S_ .f32 0x00000000#32),
    unary main_cst main_v7 (broadcastInDim S16x2048x2048 ![] bcast_S_S16x2048x2048),
    binary main_v6 main_v7 main_v8 (cmpf .ogt),
    nullary main_cst_0 (constant S_ .f32 0x3E4CCCCD#32),
    unary main_cst_0 main_v9 (broadcastInDim S16x2048x2048 ![] bcast_S_S16x2048x2048),
    binary main_v9 main_v6 main_v10 mulf,
    TRef.ternary (.of main_v8) (.of main_v6) (.of main_v10) main_call0.v0 select,
    nullary main_c (constantI S_ 32 0#32),
    unary main_c main_v12 (broadcastInDim S16x2048x2048 ![] bcast_S_S16x2048x2048),
    binary main_arg1 main_v12 main_v13 (cmpi .sgt),
    nullary main_cst_1 (constant S_ .f32 0xD9FFCB9E#32),
    TRef.unary (.of main_cst_1) main_call1.v0 id,
    TRef.unary main_call1.v0 main_call1.v1 (broadcastInDim S16x2048x2048 ![] bcast_S_S16x2048x2048),
    TRef.ternary (.of main_v13) (.of main_v11) main_call1.v1 main_call1.v2 select,
    nullary main_cst_2 (constant S_ .f32 0xFF800000#32),
    binary main_v14 main_cst_2 main_v15 (fun x v => Host.reduce FloatOps.maximumf x v reducesTo_S16x2048x2048_S16x2048_d2 h_S_),
    nullary main_cst_3 (constant S_ .f32 0xFF800000#32),
    unary main_cst_3 main_v16 (broadcastInDim S16x2048 ![] bcast_S_S16x2048),
    binary main_v16 main_v15 main_v17 maximumf,
    unary main_v17 main_v18 (broadcastInDim S16x2048x1 ![0, 1] bcast_S16x2048_S16x2048x1_0_1),
    unary main_v18 main_v19 (broadcastInDim S16x2048x2048 ![0, 1, 2] bcast_S16x2048x1_S16x2048x2048_0_1_2),
    binary main_v14 main_v19 main_v20 subf,
    unary main_v20 main_v21 Host.exp,
    nullary main_cst_4 (constant S_ .f32 0x00000000#32),
    binary main_v21 main_cst_4 main_v22 (fun x v => Host.reduceAdd x v reducesTo_S16x2048x2048_S16x2048_d2 h_S_),
    unary main_v22 main_v23 (broadcastInDim S16x2048x1 ![0, 1] bcast_S16x2048_S16x2048x1_0_1),
    unary main_v23 main_v24 (broadcastInDim S16x2048x2048 ![0, 1, 2] bcast_S16x2048x1_S16x2048x2048_0_1_2),
    binary main_v21 main_v24 main_v25 Host.divf,
    binary main_v25 main_v0 main_v26 (fun l r => Host.dotGeneral dot_S16x2048x2048_S16x2048x128_S16x2048x128_2_1_1_2_0_0 none l r),
    TRef.nullary main_call2.cst (constant S_ .f32 0x00000000#32),
    TRef.unary main_call2.cst main_call2.v0 (broadcastInDim S16x2048x128 ![] bcast_S_S16x2048x128),
    TRef.binary (.of main_v26) main_call2.v0 main_call2.v1 (cmpf .ogt),
    TRef.nullary main_call2.cst_0 (constant S_ .f32 0x00000000#32),
    TRef.unary main_call2.cst_0 main_call2.v2 (broadcastInDim S16x2048x128 ![] bcast_S_S16x2048x128),
    TRef.binary (.of main_v26) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S16x2048x128 ![] bcast_S_S16x2048x128),
    TRef.ternary main_call2.v3 main_call2.call0.v1 (.of main_v26) main_call2.call0.v2 select,
    TRef.unary main_call2.call0.v2 main_call2.v5 Host.expm1,
    TRef.nullary main_call2.cst_2 (constant S_ .f32 0x3F800000#32),
    TRef.unary main_call2.cst_2 main_call2.v6 (broadcastInDim S16x2048x128 ![] bcast_S_S16x2048x128),
    TRef.binary main_call2.v6 main_call2.v5 main_call2.v7 mulf,
    TRef.ternary main_call2.v1 (.of main_v26) main_call2.v7 main_call2.call1.v0 select ]

-- fifty-one binds re-associated: the rewrite under the chain recurses once per statement
set_option maxRecDepth 2048 in
/-- @main is that straight line: the called functions' definitions unfolded at their calls, both sides are one
    chain of steps once sequencing is re-associated. -/
theorem main_eq (c : Dev nD) : main (F := F) c = seq ops := by
  simp only [main, fn_where.body, fn_where_0.body, fn_where_1.body, fn_where_2.body, fn_elu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  The reference's result read back: the fold of its operations at the result buffer is the attention layer
  `Attn.layerR` of the five argument arrays, index by index, and the fold leaves every argument as it found it.
-/
import proofs.«405790_j12214886990524_3_alg».proof.Proof.RefRun
import proofs.«405790_j12214886990524_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

namespace Cert.ReferenceIdeal.HandValue

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

/-! ## The operations composed

The reference's operations as one term of the five arguments, stage by stage. -/

section Term
variable (x : FVec Ideal S16x2048x256 .f32) (adj : IVec S16x2048x2048 32) (w : FVec Ideal S256x128 .f32)
  (a1 a2 : FVec Ideal S128x1 .f32)

/-- The projected features `x · W`. -/
def tFeat : FVec Ideal S16x2048x128 .f32 :=
  Host.dotGeneral (F := Ideal) dot_S16x2048x256_S256x128_S16x2048x128_2_0_01_1_n_n none x w

/-- A score column `h · a`, of shape [16, 2048, 1]. -/
def tScore (a : FVec Ideal S128x1 .f32) : FVec Ideal S16x2048x1 .f32 :=
  Host.dotGeneral (F := Ideal) dot_S16x2048x128_S128x1_S16x2048x1_2_0_01_1_n_n none (tFeat x w) a

/-- The sum of the first score along rows and the second along columns. -/
def tSum : FVec Ideal S16x2048x2048 .f32 :=
  addf (broadcastInDim S16x2048x2048 ![0, 1, 2] bcast_S16x2048x1_S16x2048x2048_0_1_2 (tScore x w a1))
    (broadcastInDim S16x2048x2048 ![0, 1, 2] bcast_S16x1x2048_S16x2048x2048_0_1_2
      (transpose S16x1x2048 [0, 2, 1] (tScore x w a2) transposes_S16x2048x1_S16x1x2048_0_2_1))

/-- The leaky rectifier of the sum, as a choice on its sign. -/
def tLeaky : FVec Ideal S16x2048x2048 .f32 :=
  select (cmpf .ogt (tSum x w a1 a2) (broadcastInDim S16x2048x2048 ![] bcast_S_S16x2048x2048 (constant (F := Ideal) S_ .f32 0x00000000#32)))
    (tSum x w a1 a2)
    (mulf (broadcastInDim S16x2048x2048 ![] bcast_S_S16x2048x2048 (constant (F := Ideal) S_ .f32 0x3E4CCCCD#32)) (tSum x w a1 a2))

/-- The logits: the rectified sum where the adjacency entry is positive, the fill elsewhere. -/
def tLogit : FVec Ideal S16x2048x2048 .f32 :=
  select (cmpi .sgt adj (broadcastInDim S16x2048x2048 ![] bcast_S_S16x2048x2048 (constantI S_ 32 0#32)))
    (tLeaky x w a1 a2)
    (broadcastInDim S16x2048x2048 ![] bcast_S_S16x2048x2048 (constant (F := Ideal) S_ .f32 0xD9FFCB9E#32))

/-- The row maxima, of shape [16, 2048]. -/
def tMax : FVec Ideal S16x2048 .f32 :=
  maximumf (broadcastInDim S16x2048 ![] bcast_S_S16x2048 (constant (F := Ideal) S_ .f32 0xFF800000#32))
    (Host.reduce FloatOps.maximumf (tLogit x adj w a1 a2) (constant (F := Ideal) S_ .f32 0xFF800000#32)
      reducesTo_S16x2048x2048_S16x2048_d2 h_S_)

/-- The exponentials of the logits less their row's maximum. -/
def tExp : FVec Ideal S16x2048x2048 .f32 :=
  Host.exp (subf (tLogit x adj w a1 a2)
    (broadcastInDim S16x2048x2048 ![0, 1, 2] bcast_S16x2048x1_S16x2048x2048_0_1_2
      (broadcastInDim S16x2048x1 ![0, 1] bcast_S16x2048_S16x2048x1_0_1 (tMax x adj w a1 a2))))

/-- The row sums of the exponentials, of shape [16, 2048]. -/
def tDen : FVec Ideal S16x2048 .f32 :=
  Host.reduceAdd (F := Ideal) (tExp x adj w a1 a2) (constant (F := Ideal) S_ .f32 0x00000000#32)
    reducesTo_S16x2048x2048_S16x2048_d2 h_S_

/-- The attention weights: every exponential divided by its row's sum. -/
def tAttn : FVec Ideal S16x2048x2048 .f32 :=
  Host.divf (F := Ideal) (tExp x adj w a1 a2)
    (broadcastInDim S16x2048x2048 ![0, 1, 2] bcast_S16x2048x1_S16x2048x2048_0_1_2
      (broadcastInDim S16x2048x1 ![0, 1] bcast_S16x2048_S16x2048x1_0_1 (tDen x adj w a1 a2)))

/-- The weights contracted with the features over the key axis, batch by batch. -/
def tCtx : FVec Ideal S16x2048x128 .f32 :=
  Host.dotGeneral (F := Ideal) dot_S16x2048x2048_S16x2048x128_S16x2048x128_2_1_1_2_0_0 none (tAttn x adj w a1 a2) (tFeat x w)

/-- The final rectifier of the contraction. -/
def tOut : FVec Ideal S16x2048x128 .f32 :=
  select (cmpf .ogt (tCtx x adj w a1 a2) (broadcastInDim S16x2048x128 ![] bcast_S_S16x2048x128 (constant (F := Ideal) S_ .f32 0x00000000#32)))
    (tCtx x adj w a1 a2)
    (mulf (broadcastInDim S16x2048x128 ![] bcast_S_S16x2048x128 (constant (F := Ideal) S_ .f32 0x3F800000#32))
      (Host.expm1 (F := Ideal)
        (select (cmpf .ogt (tCtx x adj w a1 a2) (broadcastInDim S16x2048x128 ![] bcast_S_S16x2048x128 (constant (F := Ideal) S_ .f32 0x00000000#32)))
          (broadcastInDim S16x2048x128 ![] bcast_S_S16x2048x128 (constant (F := Ideal) S_ .f32 0x00000000#32))
          (tCtx x adj w a1 a2))))

end Term

/-! ## Layout operations at an index -/

section Layout
variable {α : Type}

/-- A column [16, 2048, 1] spread along the last axis reads its row's one entry. -/
theorem bcast_col_apply (u : S16x2048x1.Idx → α) (b : Fin 16) (n k : Fin 2048) :
    broadcastInDim S16x2048x2048 ![0, 1, 2] bcast_S16x2048x1_S16x2048x2048_0_1_2 u (ix3 b n k) = u (ix3 b n (0 : Fin 1)) :=
  broadcastInDim_apply _ _ u _ _ fun a => match a with | ⟨0, _⟩ => rfl | ⟨1, _⟩ => rfl | ⟨2, _⟩ => rfl

/-- A row [16, 1, 2048] spread along the middle axis reads its column's one entry. -/
theorem bcast_row_apply (u : S16x1x2048.Idx → α) (b : Fin 16) (n k : Fin 2048) :
    broadcastInDim S16x2048x2048 ![0, 1, 2] bcast_S16x1x2048_S16x2048x2048_0_1_2 u (ix3 b n k) = u (ix3 b (0 : Fin 1) k) :=
  broadcastInDim_apply _ _ u _ _ fun a => match a with | ⟨0, _⟩ => rfl | ⟨1, _⟩ => rfl | ⟨2, _⟩ => rfl

/-- A [16, 2048] array given a trailing unit axis reads the same entry. -/
theorem bcast_keep_apply (u : S16x2048.Idx → α) (b : Fin 16) (n : Fin 2048) :
    broadcastInDim S16x2048x1 ![0, 1] bcast_S16x2048_S16x2048x1_0_1 u (ix3 b n (0 : Fin 1)) = u (ix2 b n) :=
  broadcastInDim_apply _ _ u _ _ fun a => match a with | ⟨0, _⟩ => rfl | ⟨1, _⟩ => rfl

/-- A column [16, 2048, 1] with its last two axes swapped reads, at (b, 0, k), the column at (b, k, 0). -/
theorem transpose_col_apply (u : S16x2048x1.Idx → α) (b : Fin 16) (k : Fin 2048) :
    transpose S16x1x2048 [0, 2, 1] u transposes_S16x2048x1_S16x1x2048_0_2_1 (ix3 b (0 : Fin 1) k) = u (ix3 b k (0 : Fin 1)) :=
  transpose_ix3_021_apply u _ b 0 k

end Layout

/-! ## Contractions and reductions at an index -/

section Contraction

/-- A stack of rows [B, N, K] times a matrix [K, M], read at (b, n, o): the sum over the contracted coordinate of the
    products of the entries. -/
theorem dot_rows_apply {B N K M : Nat} {φ₁ φ₂ : FTy}
    (wf : DotDims.WF ⟨3, ![B, N, K]⟩ ⟨2, ![K, M]⟩ ⟨3, ![B, N, M]⟩ [2] [0] [0, 1] [1] [] [])
    (prec : Option ContractPrecision) (A : FVec Ideal ⟨3, ![B, N, K]⟩ φ₁) (W : FVec Ideal ⟨2, ![K, M]⟩ φ₂)
    (b : Fin B) (n : Fin N) (o : Fin M) :
    Host.dotGeneral (⟨[2], [0], [0, 1], [1], [], [], wf⟩ : DotDims _ _ _) prec A W (ix3 b n o)
      = ∑ c : Fin K, A (ix3 b n c) * W (ix2 c o) := by
  show FloatOps.dotGeneral _ prec _ A W (ix3 b n o) = _
  rw [Ideal.dotGeneral_apply,
    ← Equiv.sum_comp (contrEquiv1 (⟨[2], [0], [0, 1], [1], [], [], wf⟩ : DotDims _ _ _) K rfl rfl).symm]
  refine Finset.sum_congr rfl fun c _ => ?_
  have cv := contrEquiv1_symm_val
    (⟨[2], [0], [0, 1], [1], [], [], wf⟩ : DotDims ⟨3, ![B, N, K]⟩ ⟨2, ![K, M]⟩ ⟨3, ![B, N, M]⟩) K rfl rfl c
  have l : (⟨[2], [0], [0, 1], [1], [], [], wf⟩ : DotDims ⟨3, ![B, N, K]⟩ ⟨2, ![K, M]⟩ ⟨3, ![B, N, M]⟩).lhsIdx (ix3 b n o)
      ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cv
  have r : (⟨[2], [0], [0, 1], [1], [], [], wf⟩ : DotDims ⟨3, ![B, N, K]⟩ ⟨2, ![K, M]⟩ ⟨3, ![B, N, M]⟩).rhsIdx (ix3 b n o)
      ((contrEquiv1 _ K rfl rfl).symm c) = ix2 c o := by
    funext ax; apply Fin.ext
    match ax with
    | ⟨0, _⟩ => simp [DotDims.rhsIdx]; exact cv
    | ⟨1, _⟩ => simp [DotDims.rhsIdx]; rfl
  rw [l, r]

/-- Over result index (b, n), the source index with coordinate k on the dropped last axis is (b, n, k). -/
theorem lift_row (h : S16x2048x2048.Reduces [2] S16x2048) (b : Fin 16) (n k : Fin 2048) :
    h.lift (ix2 b n) k = ix3 b n k := by
  funext c; apply Fin.ext
  match c with
  | ⟨0, _⟩ => rfl
  | ⟨1, _⟩ => rfl
  | ⟨2, _⟩ => rfl

/-- The word 0xFF800000 is the least extended real. -/
theorem negInf_eq_bot : Ideal.ofBits .f32 0xFF800000#32 = (⊥ : EReal) := by simp [Ideal.ofBits, Ideal.ieee]

/-- A maximum with that word is the other operand. -/
theorem max_negInf (y : EReal) : max (Ideal.ofBits .f32 0xFF800000#32) y = y := by
  rw [negInf_eq_bot]; exact max_bot_left y

/-- The maximum-reduce over the last axis, read at (b, n): the fold of max over the row's entries. -/
theorem rowMax_apply (g : FVec Ideal S16x2048x2048 .f32) (b : Fin 16) (n : Fin 2048) :
    Host.reduce FloatOps.maximumf g (constant (F := Ideal) S_ .f32 0xFF800000#32) reducesTo_S16x2048x2048_S16x2048_d2 h_S_ (ix2 b n)
      = (Finset.univ : Finset (Fin 2048)).fold max (Ideal.ofBits .f32 0xFF800000#32) (fun k => g (ix3 b n k)) := by
  have h : S16x2048x2048.Reduces [2] S16x2048 := by decide
  refine (Host.reduce_eq_fold_single FloatOps.maximumf g _ reducesTo_S16x2048x2048_S16x2048_d2 h h_S_ (ix2 b n)).trans ?_
  exact congrArg (fun f => (Finset.univ : Finset (Fin 2048)).fold max (Ideal.ofBits .f32 0xFF800000#32) f)
    (funext fun k => congrArg g (lift_row h b n k))

/-- The add-reduce over the last axis from the zero word, read at (b, n): the sum of the row's entries. -/
theorem rowSum_apply (p : FVec Ideal S16x2048x2048 .f32) (b : Fin 16) (n : Fin 2048) :
    Host.reduceAdd (F := Ideal) p (constant (F := Ideal) S_ .f32 0x00000000#32) reducesTo_S16x2048x2048_S16x2048_d2 h_S_ (ix2 b n)
      = ∑ k : Fin 2048, p (ix3 b n k) := by
  have h : S16x2048x2048.Reduces [2] S16x2048 := by decide
  refine (Ideal.hostReduceAdd_single reducesTo_S16x2048x2048_S16x2048_d2 h p (Ideal.ofBits .f32 0x00000000#32) (ix2 b n)).trans ?_
  rw [Ideal.ofBits_zero_f32, zero_add]
  exact Finset.sum_congr rfl fun k _ => congrArg p (lift_row h b n k)

end Contraction

/-! ## The stages at an index -/

section Stages
open Cert.Attn
variable (x : FVec Ideal S16x2048x256 .f32) (adj : IVec S16x2048x2048 32) (w : FVec Ideal S256x128 .f32)
  (a1 a2 : FVec Ideal S128x1 .f32)

/-- The features at (b, n, o): the sum over the input features. -/
theorem tFeat_apply (b : Fin 16) (n : Fin 2048) (o : Fin 128) : tFeat x w (ix3 b n o) = feat x w b n o := by
  unfold tFeat feat
  exact dot_rows_apply _ none x w b n o

theorem tFeat_eq : tFeat x w = featArr x w := by
  funext i
  obtain ⟨b, n, o, rfl⟩ : ∃ (b : Fin 16) (n : Fin 2048) (o : Fin 128), i = ix3 b n o := ⟨i 0, i 1, i 2, eq_ix3 i⟩
  exact tFeat_apply x w b n o

/-- A score at (b, n, 0): the features of node n against the weight column. -/
theorem tScore_apply (a : FVec Ideal S128x1 .f32) (b : Fin 16) (n : Fin 2048) :
    tScore x w a (ix3 b n (0 : Fin 1)) = scoreRow (featArr x w) (colAsRow a) b n := by
  unfold tScore
  rw [tFeat_eq]
  exact dot_rows_apply _ none (featArr x w) a b n 0

/-- The score sum at (b, n, k): node n's first score plus node k's second. -/
theorem tSum_apply (b : Fin 16) (n k : Fin 2048) :
    tSum x w a1 a2 (ix3 b n k)
      = scoreRowArr (featArr x w) (colAsRow a1) (ix3 b 0 n) + scoreRowArr (featArr x w) (colAsRow a2) (ix3 b 0 k) := by
  unfold tSum
  rw [addf_apply, bcast_col_apply, bcast_row_apply, transpose_col_apply, tScore_apply, tScore_apply]
  rfl

/-- The logits of row (b, n). -/
theorem tLogit_apply (b : Fin 16) (n k : Fin 2048) :
    tLogit x adj w a1 a2 (ix3 b n k)
      = logits leakyR (scoreRowArr (featArr x w) (colAsRow a1)) (scoreRowArr (featArr x w) (colAsRow a2)) adj b n k := by
  unfold tLogit tLeaky
  show Scalar.select (IntOp.cmpi .sgt (adj (ix3 b n k)) 0#32)
      (Scalar.select (Ideal.cmp .ogt (tSum x w a1 a2 (ix3 b n k)) (Ideal.ofBits .f32 0x00000000#32)) (tSum x w a1 a2 (ix3 b n k))
        (Ideal.ofBits .f32 0x3E4CCCCD#32 * tSum x w a1 a2 (ix3 b n k)))
      (Ideal.ofBits .f32 0xD9FFCB9E#32) = _
  rw [tSum_apply, Ideal.ofBits_zero_f32]
  rfl

theorem tLogit_row (b : Fin 16) (n : Fin 2048) :
    (fun k => tLogit x adj w a1 a2 (ix3 b n k))
      = logits leakyR (scoreRowArr (featArr x w) (colAsRow a1)) (scoreRowArr (featArr x w) (colAsRow a2)) adj b n :=
  funext fun k => tLogit_apply x adj w a1 a2 b n k

/-- The row maximum at (b, n). -/
theorem tMax_apply (b : Fin 16) (n : Fin 2048) :
    tMax x adj w a1 a2 (ix2 b n)
      = rowMax (logits leakyR (scoreRowArr (featArr x w) (colAsRow a1)) (scoreRowArr (featArr x w) (colAsRow a2)) adj b n) := by
  unfold tMax
  rw [maximumf_apply, rowMax_apply, tLogit_row]
  exact max_negInf _

/-- An exponential at (b, n, k): the weight of key k. -/
theorem tExp_apply (b : Fin 16) (n k : Fin 2048) :
    tExp x adj w a1 a2 (ix3 b n k)
      = weight (logits leakyR (scoreRowArr (featArr x w) (colAsRow a1)) (scoreRowArr (featArr x w) (colAsRow a2)) adj b n) k := by
  unfold tExp
  show Ideal.exp (tLogit x adj w a1 a2 (ix3 b n k)
      - broadcastInDim S16x2048x2048 ![0, 1, 2] bcast_S16x2048x1_S16x2048x2048_0_1_2
          (broadcastInDim S16x2048x1 ![0, 1] bcast_S16x2048_S16x2048x1_0_1 (tMax x adj w a1 a2)) (ix3 b n k)) = _
  rw [bcast_col_apply, bcast_keep_apply, tLogit_apply, tMax_apply]
  rfl

/-- The row sum at (b, n): the normaliser. -/
theorem tDen_apply (b : Fin 16) (n : Fin 2048) :
    tDen x adj w a1 a2 (ix2 b n)
      = denom (logits leakyR (scoreRowArr (featArr x w) (colAsRow a1)) (scoreRowArr (featArr x w) (colAsRow a2)) adj b n) := by
  unfold tDen
  rw [rowSum_apply]
  exact Finset.sum_congr rfl fun k _ => tExp_apply x adj w a1 a2 b n k

/-- An attention weight at (b, n, k). -/
theorem tAttn_apply (b : Fin 16) (n k : Fin 2048) :
    tAttn x adj w a1 a2 (ix3 b n k)
      = Ideal.div (weight (logits leakyR (scoreRowArr (featArr x w) (colAsRow a1)) (scoreRowArr (featArr x w) (colAsRow a2)) adj b n) k)
          (denom (logits leakyR (scoreRowArr (featArr x w) (colAsRow a1)) (scoreRowArr (featArr x w) (colAsRow a2)) adj b n)) := by
  unfold tAttn
  show Ideal.div (tExp x adj w a1 a2 (ix3 b n k)) (broadcastInDim _ _ _ _ (ix3 b n k)) = _
  rw [bcast_col_apply, bcast_keep_apply, tExp_apply, tDen_apply]

/-- The contraction at (b, n, o): the weighted sum of the key nodes' features. -/
theorem tCtx_apply (b : Fin 16) (n : Fin 2048) (o : Fin 128) :
    tCtx x adj w a1 a2 (ix3 b n o)
      = ∑ k : Fin 2048,
          Ideal.div (weight (logits leakyR (scoreRowArr (featArr x w) (colAsRow a1)) (scoreRowArr (featArr x w) (colAsRow a2)) adj b n) k)
            (denom (logits leakyR (scoreRowArr (featArr x w) (colAsRow a1)) (scoreRowArr (featArr x w) (colAsRow a2)) adj b n))
          * featArr x w (ix3 b k o) := by
  unfold tCtx
  rw [tFeat_eq]
  refine (StackMember.dotGeneral_stack_apply _ none (tAttn x adj w a1 a2) (featArr x w) b n o).trans ?_
  exact Finset.sum_congr rfl fun k _ => by rw [tAttn_apply]

/-- The result at (b, n, o): the final rectifier of the contraction. -/
theorem tOut_apply (b : Fin 16) (n : Fin 2048) (o : Fin 128) :
    tOut x adj w a1 a2 (ix3 b n o) = eluR (tCtx x adj w a1 a2 (ix3 b n o)) := by
  unfold tOut
  generalize tCtx x adj w a1 a2 = y
  show Scalar.select (Ideal.cmp .ogt (y (ix3 b n o)) (Ideal.ofBits .f32 0x00000000#32)) (y (ix3 b n o))
      (Ideal.ofBits .f32 0x3F800000#32
        * (Ideal.exp (Scalar.select (Ideal.cmp .ogt (y (ix3 b n o)) (Ideal.ofBits .f32 0x00000000#32))
            (Ideal.ofBits .f32 0x00000000#32) (y (ix3 b n o))) - 1)) = _
  rw [Ideal.ofBits_zero_f32]
  rfl

/-- The composed term is the layer. -/
theorem tOut_eq : tOut x adj w a1 a2 = layerR x adj w a1 a2 := by
  funext i
  obtain ⟨b, n, o, rfl⟩ : ∃ (b : Fin 16) (n : Fin 2048) (o : Fin 128), i = ix3 b n o := ⟨i 0, i 1, i 2, eq_ix3 i⟩
  rw [tOut_apply, tCtx_apply]
  rfl

end Stages

/-! ## The fold of the operations -/

set_option maxRecDepth 8192 in
set_option maxHeartbeats 1000000 in
/-- The result buffer after the operations holds the composed term of the five arguments. -/
theorem after_out (V : Valuation τ sig (Elt Ideal)) :
    after (ops (F := Ideal)) V (main_v27 : DevRef τ sig)
      = tOut (V (main_arg0 : DevRef τ sig)) (V (main_arg1 : DevRef τ sig)) (V (main_arg2 : DevRef τ sig))
          (V (main_arg3 : DevRef τ sig)) (V (main_arg4 : DevRef τ sig)) := by
  after_results_simp
  rfl

/-- The result buffer after the operations: the layer of the arguments. -/
theorem out_eq (V : Valuation τ sig (Elt Ideal)) :
    after (ops (F := Ideal)) V (main_v27 : DevRef τ sig)
      = Cert.Attn.layerR (V (main_arg0 : DevRef τ sig)) (V (main_arg1 : DevRef τ sig)) (V (main_arg2 : DevRef τ sig))
          (V (main_arg3 : DevRef τ sig)) (V (main_arg4 : DevRef τ sig)) :=
  (after_out V).trans (tOut_eq _ _ _ _ _)

set_option maxRecDepth 8192 in
set_option maxHeartbeats 1000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 1000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 1000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 1000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 1000000 in
theorem arg4_eq (V : Valuation τ sig (Elt Ideal)) :
    after (ops (F := Ideal)) V (main_arg4 : DevRef τ sig) = V (main_arg4 : DevRef τ sig) := by
  after_results_simp

end Cert.ReferenceIdeal.HandValue

end
-- ==== Proof.Algebra.lean ====
/-
  The two spellings of the attention layer agree wherever the inputs are real numbers.

  Three small facts carry it. (1) For every extended real `e`, `max e (α·e)` with `0 < α < 1` is `e` where `e > 0` and
  `α·e` elsewhere: the two leaky rectifiers are one function. (2) A row of logits that are real numbers has a real
  maximum (it is taken over 2048 ≥ 1 entries, from −∞), so every weight `exp (g k − max)` is a positive real and their
  sum `l` a positive real; for reals `(∑ k, p k · h k) / l = ∑ k, (p k / l) · h k`, and division by a nonzero real is
  multiplication by its reciprocal on every extended real. (3) Where `y` is not positive, `min y 0 = y`, and the word
  of one denotes `1`, so `exp (min y 0) − 1 = 1 · (exp y − 1)`: the two final rectifiers are one function.
-/
import proofs.«405790_j12214886990524_3_alg».proof.Proof.Spec

noncomputable section

namespace Cert.Attn

open Idealize.ShloMosaic Idealize.ShloMosaic.ValueIdx

/-! ## The literal words -/

theorem negInf_eq : negInf = ⊥ := by
  unfold negInf; simp [Ideal.ofBits, Ideal.ieee]

theorem one_eq : one = 1 := by
  unfold one; simp [Ideal.ofBits, Ideal.ieee, -EReal.coe_mul]; norm_num

theorem slope_eq : slope = ((13421773 / 67108864 : ℝ) : EReal) := by
  unfold slope; simp [Ideal.ofBits, Ideal.ieee, -EReal.coe_mul]; norm_num

theorem fill_eq : fill = ((-8999999815811072 : ℝ) : EReal) := by
  unfold fill; simp [Ideal.ofBits, Ideal.ieee, -EReal.coe_mul]; norm_num

/-! ## Extended reals that are real numbers -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite sum of real numbers, summed in the extended reals, is their real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isReal_slope : IsReal slope := ⟨_, slope_eq⟩
theorem isReal_fill : IsReal fill := ⟨_, fill_eq⟩

/-! ## A choice on a comparison with zero -/

/-- The choice on "greater than zero" is an `if`. -/
theorem select_ogt_zero {α : Type} (e : EReal) (a b : α) :
    Scalar.select (Ideal.cmp .ogt e 0) a b = if 0 < e then a else b := by
  unfold Scalar.select Ideal.cmp
  by_cases h : (0 : EReal) < e
  · simp [h]
  · simp [h]

/-! ## (1) The leaky rectifier -/

/-- The maximum with a scaled copy is the choice on the sign, at every extended real. -/
theorem leakyK_eq_leakyR (e : EReal) : leakyK e = leakyR e := by
  unfold leakyK leakyR
  rw [select_ogt_zero, slope_eq]
  induction e using EReal.rec with
  | bot =>
    have h1 : ((13421773 / 67108864 : ℝ) : EReal) * ⊥ = ⊥ := EReal.coe_mul_bot_of_pos (by norm_num)
    rw [h1]; simp
  | top =>
    have h1 : ((13421773 / 67108864 : ℝ) : EReal) * ⊤ = ⊤ := EReal.coe_mul_top_of_pos (by norm_num)
    rw [h1]; simp
  | coe r =>
    rw [← EReal.coe_mul]
    by_cases h : (0 : ℝ) < r
    · have h' : (0 : EReal) < (r : EReal) := by exact_mod_cast h
      rw [if_pos h', max_eq_left]
      exact_mod_cast (by nlinarith : 13421773 / 67108864 * r ≤ r)
    · have h' : ¬ (0 : EReal) < (r : EReal) := by exact_mod_cast h
      rw [if_neg h', max_eq_right]
      exact_mod_cast (by nlinarith [not_lt.mp h] : r ≤ 13421773 / 67108864 * r)

theorem logits_leaky (s1 s2 : SScore.Idx → EReal) (adj : SAdj.Idx → BitVec 32) (b : Fin 16) (n : Fin 2048) :
    logits leakyK s1 s2 adj b n = logits leakyR s1 s2 adj b n := by
  funext k; unfold logits; rw [leakyK_eq_leakyR]

/-! ## (3) The final rectifier -/

theorem eluK_eq_eluR (y : EReal) : eluK y = eluR y := by
  unfold eluK eluR
  rw [select_ogt_zero, select_ogt_zero, select_ogt_zero, one_eq]
  by_cases h : (0 : EReal) < y
  · rw [if_pos h, if_pos h]
  · rw [if_neg h, if_neg h, if_neg h, min_eq_left (not_lt.mp h), one_mul]

/-! ## (2) Real logits: a real maximum, positive real weights, and the division moved across the sum -/

theorem isReal_leakyR {e : EReal} (he : IsReal e) : IsReal (leakyR e) := by
  unfold leakyR; rw [select_ogt_zero]
  split
  · exact he
  · exact isReal_slope.mul he

/-- Real scores give real logits. -/
theorem isReal_logits (s1 s2 : SScore.Idx → EReal) (h1 : ∀ i, IsReal (s1 i)) (h2 : ∀ i, IsReal (s2 i))
    (adj : SAdj.Idx → BitVec 32) (b : Fin 16) (n k : Fin 2048) : IsReal (logits leakyR s1 s2 adj b n k) := by
  unfold logits Scalar.select
  split
  · exact isReal_leakyR ((h1 _).add (h2 _))
  · exact isReal_fill

/-- A row of real numbers has a real maximum. -/
theorem isReal_rowMax (g : Fin 2048 → EReal) (hg : ∀ k, IsReal (g k)) : IsReal (rowMax g) := by
  have hlt : rowMax g < ⊤ := by
    unfold rowMax
    rw [Finset.fold_max_lt]
    refine ⟨by rw [negInf_eq]; exact bot_lt_top, fun k _ => ?_⟩
    obtain ⟨r, hr⟩ := hg k; rw [hr]; exact EReal.coe_lt_top r
  have hgt : ⊥ < rowMax g := by
    unfold rowMax
    rw [Finset.lt_fold_max]
    refine Or.inr ⟨0, Finset.mem_univ _, ?_⟩
    obtain ⟨r, hr⟩ := hg 0; rw [hr]; exact EReal.bot_lt_coe r
  exact ⟨(rowMax g).toReal, (EReal.coe_toReal hlt.ne hgt.ne').symm⟩

/-- Every weight of a real row is a positive real. -/
theorem weight_pos_real (g : Fin 2048 → EReal) (hg : ∀ k, IsReal (g k)) (k : Fin 2048) :
    ∃ p : ℝ, 0 < p ∧ weight g k = (p : EReal) := by
  obtain ⟨r, hr⟩ := (hg k).sub (isReal_rowMax g hg)
  refine ⟨Real.exp r, Real.exp_pos r, ?_⟩
  unfold weight; rw [hr]; rfl

/-- The division moved across the contraction: for a row of real logits and real features, the weighted sum divided by
    the normaliser is the sum of the divided weights' products. -/
theorem div_sum_eq_sum_div (g : Fin 2048 → EReal) (hg : ∀ k, IsReal (g k)) (f : Fin 2048 → EReal) (hf : ∀ k, IsReal (f k)) :
    Ideal.div (∑ k : Fin 2048, weight g k * f k) (denom g) = ∑ k : Fin 2048, Ideal.div (weight g k) (denom g) * f k := by
  choose p hp0 hp using weight_pos_real g hg
  choose q hq using hf
  obtain ⟨L, hLdef⟩ : ∃ L : ℝ, L = ∑ k : Fin 2048, p k := ⟨_, rfl⟩
  have hden : denom g = (L : EReal) := by
    unfold denom; rw [hLdef, ← coe_sum]; exact Finset.sum_congr rfl fun k _ => hp k
  have hL : L ≠ 0 := by
    rw [hLdef]; exact (Finset.sum_pos (fun k _ => hp0 k) ⟨0, Finset.mem_univ _⟩).ne'
  have lhs : (∑ k : Fin 2048, weight g k * f k) = ((∑ k : Fin 2048, p k * q k : ℝ) : EReal) := by
    rw [← coe_sum]; exact Finset.sum_congr rfl fun k _ => by rw [hp k, hq k, EReal.coe_mul]
  have hterm : ∀ k : Fin 2048, Ideal.div (weight g k) (L : EReal) * f k = ((p k * (1 / L) * q k : ℝ) : EReal) := fun k => by
    rw [Ideal.div_coe hL, hp k, hq k, ← EReal.coe_mul, ← EReal.coe_mul]
  rw [hden, Ideal.div_coe hL, lhs, ← EReal.coe_mul, Finset.sum_congr rfl fun k _ => hterm k, coe_sum, Finset.sum_mul]
  exact congrArg _ (Finset.sum_congr rfl fun k _ => by ring)

/-! ## The two layers -/

/-- At one output entry (b, n, o): with real scores and real features the two spellings agree. -/
theorem out_at (s1 s2 : SScore.Idx → EReal) (h1 : ∀ i, IsReal (s1 i)) (h2 : ∀ i, IsReal (s2 i))
    (adj : SAdj.Idx → BitVec 32) (h : SFeat.Idx → EReal) (hh : ∀ i, IsReal (h i)) (b : Fin 16) (n : Fin 2048) (o : Fin 128) :
    eluK (Ideal.div (∑ k : Fin 2048, weight (logits leakyK s1 s2 adj b n) k * h (ix3 b k o)) (denom (logits leakyK s1 s2 adj b n)))
      = eluR (∑ k : Fin 2048, Ideal.div (weight (logits leakyR s1 s2 adj b n) k) (denom (logits leakyR s1 s2 adj b n)) * h (ix3 b k o)) := by
  rw [logits_leaky, eluK_eq_eluR]
  exact congrArg eluR (div_sum_eq_sum_div _ (fun k => isReal_logits s1 s2 h1 h2 adj b n k) _ (fun k => hh _))

/-- With real scores and real features the two spellings of the layer are one array. -/
theorem outK_eq_outR (s1 s2 : SScore.Idx → EReal) (h1 : ∀ i, IsReal (s1 i)) (h2 : ∀ i, IsReal (s2 i))
    (adj : SAdj.Idx → BitVec 32) (h : SFeat.Idx → EReal) (hh : ∀ i, IsReal (h i)) :
    outK s1 s2 adj h = outR s1 s2 adj h :=
  funext fun i => out_at s1 s2 h1 h2 adj h hh (i 0) (i 1) (i 2)

/-- Real inputs give real features … -/
theorem isReal_featArr (x : SIn.Idx → EReal) (w : SWt.Idx → EReal) (hx : ∀ i, IsReal (x i)) (hw : ∀ i, IsReal (w i))
    (i : SFeat.Idx) : IsReal (featArr x w i) := by
  unfold featArr feat
  exact IsReal.sum _ _ fun f _ => (hx _).mul (hw _)

/-- … and real scores. -/
theorem isReal_scoreRowArr (h : SFeat.Idx → EReal) (r : SRow.Idx → EReal) (hh : ∀ i, IsReal (h i)) (hr : ∀ i, IsReal (r i))
    (i : SScore.Idx) : IsReal (scoreRowArr h r i) := by
  unfold scoreRowArr scoreRow
  exact IsReal.sum _ _ fun o _ => (hh _).mul (hr _)

/-- THE LAW: on real inputs the layer with the division after the contraction is the layer with the division before it. -/
theorem layerK_eq_layerR (x : SIn.Idx → EReal) (adj : SAdj.Idx → BitVec 32) (w : SWt.Idx → EReal) (a1 a2 : SCol.Idx → EReal)
    (hx : ∀ i, IsReal (x i)) (hw : ∀ i, IsReal (w i)) (h1 : ∀ i, IsReal (a1 i)) (h2 : ∀ i, IsReal (a2 i)) :
    layerK x adj w a1 a2 = layerR x adj w a1 a2 := by
  unfold layerK layerR
  have hh := isReal_featArr x w hx hw
  exact outK_eq_outR _ _ (isReal_scoreRowArr _ _ hh fun j => h1 _) (isReal_scoreRowArr _ _ hh fun j => h2 _) adj _ hh

end Cert.Attn

end
-- ==== Proof.Finite.lean ====
/-
  From the precondition to real numbers. The precondition says, of each of the four float inputs, that every entry's
  absolute value is below +∞ (one conjunction over all entries per input, the four joined). An extended real whose
  absolute value `max y (−y)` is below +∞ is neither infinity, so it is a real number.
-/
import proofs.«405790_j12214886990524_3_alg».proof.Pre_finite_inputs
import proofs.«405790_j12214886990524_3_alg».proof.Proof.Algebra
import Idealize.ShloMosaic.Lib.ReduceAll
import Idealize.ShloMosaic.Lib.ValueIdx

noncomputable section

namespace Cert.Finite

open Idealize.ShloMosaic Cert.Pre_finite_inputs Cert.Attn

variable [Cert.Pre_finite_inputs.Facts]
open Cert.Pre_finite_inputs.Facts

/-- The rank-zero shape has one index. -/
instance : Subsingleton S_.Idx := ⟨fun a b => funext fun d => d.elim0⟩

/-- The word of +∞. -/
theorem posInf_eq : Ideal.ofBits .f32 0x7F800000#32 = ⊤ := by
  simp [Ideal.ofBits, Ideal.ieee]

/-- An extended real whose absolute value is below +∞ is a real number. -/
theorem isReal_of_abs_lt_top (y : EReal) (h : max y (-y) < ⊤) : IsReal y := by
  induction y using EReal.rec with
  | bot => simp at h
  | top => simp at h
  | coe r => exact ⟨r, rfl⟩

/-- One entry of one input: the comparison "absolute value below the +∞ word" holding there makes the entry real. -/
theorem entry_real (y : EReal) (h : Ideal.cmp .olt (max y (-y)) (Ideal.ofBits .f32 0x7F800000#32) = 1#1) : IsReal y := by
  rw [posInf_eq] at h
  refine isReal_of_abs_lt_top y ?_
  by_contra hc
  have h0 : Ideal.cmp .olt (max y (-y)) ⊤ = 0#1 := by unfold Ideal.cmp; simp [hc]
  rw [h0] at h
  exact absurd h (by decide)

/-- The precondition at the ideal values makes every entry of every float input a real number. -/
theorem reals_of_pre (x : FVec Ideal S16x2048x256 .f32) (adj : IVec S16x2048x2048 32) (w : FVec Ideal S256x128 .f32)
    (a1 a2 : FVec Ideal S128x1 .f32) (h : fn (F := Ideal) x adj w a1 a2 = fun _ => 1#1) :
    (∀ i, IsReal (x i)) ∧ (∀ i, IsReal (w i)) ∧ (∀ i, IsReal (a1 i)) ∧ (∀ i, IsReal (a2 i)) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun i => entry_real (x i) (Host.reduce_andi_all _ _ _ _ ValueIdx.ix0 h1 i),
    fun i => entry_real (w i) (Host.reduce_andi_all _ _ _ _ ValueIdx.ix0 h2 i),
    fun i => entry_real (a1 i) (Host.reduce_andi_all _ _ _ _ ValueIdx.ix0 h3 i),
    fun i => entry_real (a2 i) (Host.reduce_andi_all _ _ _ _ ValueIdx.ix0 h4 i)⟩

end Cert.Finite

end
-- ==== Proof.lean ====
/-
  A graph-attention layer: a projection kernel (features `h = x · W` and two attention scores per node) followed by an
  attention kernel (masked, leaky-rectified score sums; a softmax over the key nodes; the weighted sum of the key nodes'
  features; an exponential linear unit), against the same layer written with array operations.

  Over the extended reals both programs compute, at every output entry (b, n, o),
      elu (∑ k, softmax_k (g[b, n, ·]) · h[b, k, o]),    g[b, n, k] = leaky (s₁[b, n] + s₂[b, k]) or a large negative fill,
  and they differ in three spellings only (Proof/Spec.lean): the kernel divides the weighted sum by the softmax's
  normaliser after the contraction over `k` where the reference divides every weight first; it takes the leaky
  rectifier as `max e (α·e)`; and it writes the final rectifier's exponential-minus-one as `exp (min y 0) − 1`.
  The last two agree at every extended real; the first needs the weights, the normaliser and the features to be real
  numbers (at an infinite feature the two orders part), which is what the precondition — every float input finite —
  gives: a finite sum of products of reals is real, a row of real logits has a real maximum, so every weight is a
  positive real and the normaliser a positive real (Proof/Algebra.lean, Proof/Finite.lean).

  The kernel's result is read off its two launches' write-backs (Proof/Region0.lean, Proof/Region1.lean, put together
  in Proof/KValue.lean over the run of Proof/KRun.lean); the reference's is its 51 operations composed
  (Proof/RefRun.lean) and read at an index (Proof/RefValue.lean).
-/
import proofs.«405790_j12214886990524_3_alg».proof.Defs
import proofs.«405790_j12214886990524_3_alg».proof.Proof.Gen.Kernel
import proofs.«405790_j12214886990524_3_alg».proof.Proof.Gen.Kernel.Skeleton
import proofs.«405790_j12214886990524_3_alg».proof.Proof.Gen.Kernel.Launch
import proofs.«405790_j12214886990524_3_alg».proof.Proof.Gen.Kernel.Points
import proofs.«405790_j12214886990524_3_alg».proof.Proof.Gen.Kernel.Frame
import proofs.«405790_j12214886990524_3_alg».proof.Proof.Gen.KernelIdeal
import proofs.«405790_j12214886990524_3_alg».proof.Proof.Gen.KernelIdeal.Skeleton
import proofs.«405790_j12214886990524_3_alg».proof.Proof.Gen.KernelIdeal.Launch
import proofs.«405790_j12214886990524_3_alg».proof.Proof.Gen.KernelIdeal.Points
import proofs.«405790_j12214886990524_3_alg».proof.Proof.Gen.KernelIdeal.Frame
import proofs.«405790_j12214886990524_3_alg».proof.Proof.Gen.ReferenceIdeal
import proofs.«405790_j12214886990524_3_alg».proof.Proof.Gen.Pre_finite_inputs
import proofs.«405790_j12214886990524_3_alg».proof.Proof.KRun
import proofs.«405790_j12214886990524_3_alg».proof.Proof.KValue
import proofs.«405790_j12214886990524_3_alg».proof.Proof.RefRun
import proofs.«405790_j12214886990524_3_alg».proof.Proof.RefValue
import proofs.«405790_j12214886990524_3_alg».proof.Proof.Algebra
import proofs.«405790_j12214886990524_3_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run read at the five argument buffers, which none
    of its operations writes. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.HandValue.arg0_eq _),
      (h c Cert.ReferenceIdeal.main_arg1).trans (Cert.ReferenceIdeal.HandValue.arg1_eq _),
      (h c Cert.ReferenceIdeal.main_arg2).trans (Cert.ReferenceIdeal.HandValue.arg2_eq _),
      (h c Cert.ReferenceIdeal.main_arg3).trans (Cert.ReferenceIdeal.HandValue.arg3_eq _),
      (h c Cert.ReferenceIdeal.main_arg4).trans (Cert.ReferenceIdeal.HandValue.arg4_eq _)⟩)
    (Cert.ReferenceIdeal.HandRun.run_main (F := Ideal) m ρ)

/-- The ideal pass rewrote nothing: the idealization is the kernel's own text read over the extended reals. -/
theorem preserves : Cert.preserves_Kernel_KernelIdeal := trivial

/-- Over the extended reals, from memories agreeing on the five arguments, both programs end with the result array at
    the layer `Attn.layerK` of the kernel's arguments: the kernel by its two launches' values, the reference at
    `Attn.layerR` of its own (equal) arguments, which is `layerK` of them because the precondition makes every float
    input a real number. -/
theorem algebraic : Cert.algebraic_KernelIdeal_ReferenceIdeal := by
  intro m ρ m' ρ' hpre hagree
  refine ⟨fun c => Cert.Attn.layerK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq m ρ c), (h c).2⟩)
      (Cert.KernelIdeal.Run.run_v3 (F := Ideal) m ρ)
  · refine (θ_run Cert.ReferenceIdeal.defs _ _).mono
      (fun _ h c => ⟨((h c Cert.ReferenceIdeal.main_v27).trans (Cert.ReferenceIdeal.HandValue.out_eq _)).trans ?_,
        (h c Cert.ReferenceIdeal.main_arg0).trans (Cert.ReferenceIdeal.HandValue.arg0_eq _),
        (h c Cert.ReferenceIdeal.main_arg1).trans (Cert.ReferenceIdeal.HandValue.arg1_eq _),
        (h c Cert.ReferenceIdeal.main_arg2).trans (Cert.ReferenceIdeal.HandValue.arg2_eq _),
        (h c Cert.ReferenceIdeal.main_arg3).trans (Cert.ReferenceIdeal.HandValue.arg3_eq _),
        (h c Cert.ReferenceIdeal.main_arg4).trans (Cert.ReferenceIdeal.HandValue.arg4_eq _)⟩)
      (Cert.ReferenceIdeal.HandRun.run_main (F := Ideal) m' ρ')
    show Cert.Attn.layerR
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    obtain ⟨hx, hw, h1, h2⟩ := Cert.Finite.reals_of_pre _ _ _ _ _ (hpre c)
    exact (Cert.Attn.layerK_eq_layerR _ _ _ _ _ hx hw h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
